-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x128 : Shape := ⟨3, ![8, 256, 128]⟩
abbrev S8x256x256x128 : Shape := ⟨4, ![8, 256, 256, 128]⟩
abbrev S128x128 : Shape := ⟨2, ![128, 128]⟩
abbrev S128 : Shape := ⟨1, ![128]⟩
abbrev S_ : Shape := ⟨0, ![]⟩

class Facts : Prop where
  bcast_S_S8x256x128 : S_.BroadcastsInDim S8x256x128 (![] : Fin 0 → Fin S8x256x128.rank)
  reducesTo_S8x256x128_S_d0_1_2 : S8x256x128.ReducesTo [0, 1, 2] S_
  h_S_ : 0 < S_.numel
  bcast_S_S8x256x256x128 : S_.BroadcastsInDim S8x256x256x128 (![] : Fin 0 → Fin S8x256x256x128.rank)
  reducesTo_S8x256x256x128_S_d0_1_2_3 : S8x256x256x128.ReducesTo [0, 1, 2, 3] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S8x256x128 .f32) (main_arg1 : FVec F S8x256x256x128 .f32) (main_arg2 : FVec F S128x128 .f32) (main_arg3 : FVec F S128 .f32) (main_arg4 : FVec F S128 .f32) (main_arg5 : FVec F S128 .f32) : IVec S_ 1 :=
  let main_v0 : FVec F S8x256x128 .f32 := Host.absf main_arg0
  let main_cst : FVec F S_ .f32 := constant S_ .f32 0x7F800000#32
  let main_v1 : FVec F S8x256x128 .f32 := broadcastInDim S8x256x128 ![] bcast_S_S8x256x128 main_cst
  let main_v2 : IVec S8x256x128 1 := cmpf .olt main_v0 main_v1
  let main_c : IVec S_ 1 := constantI S_ 1 1#1
  let main_v3 : IVec S_ 1 := (fun x v => Host.reduce IntOp.andi x v reducesTo_S8x256x128_S_d0_1_2 h_S_) main_v2 main_c
  let main_v4 : FVec F S8x256x256x128 .f32 := Host.absf main_arg1
  let main_cst_0 : FVec F S_ .f32 := constant S_ .f32 0x7F800000#32
  let main_v5 : FVec F S8x256x256x128 .f32 := broadcastInDim S8x256x256x128 ![] bcast_S_S8x256x256x128 main_cst_0
  let main_v6 : IVec S8x256x256x128 1 := cmpf .olt main_v4 main_v5
  let main_c_1 : IVec S_ 1 := constantI S_ 1 1#1
  let main_v7 : IVec S_ 1 := (fun x v => Host.reduce IntOp.andi x v reducesTo_S8x256x256x128_S_d0_1_2_3 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S8x256x128 : Shape := ⟨3, ![8, 256, 128]⟩
abbrev S8x256x256x128 : Shape := ⟨4, ![8, 256, 256, 128]⟩
abbrev S128x128 : Shape := ⟨2, ![128, 128]⟩
abbrev S128 : Shape := ⟨1, ![128]⟩
abbrev S1x128 : Shape := ⟨2, ![1, 128]⟩
abbrev S1x128x256x128 : Shape := ⟨4, ![1, 128, 256, 128]⟩
abbrev S1x256x128 : Shape := ⟨3, ![1, 256, 128]⟩
abbrev S1x128x128 : Shape := ⟨3, ![1, 128, 128]⟩
abbrev S1x128x128x128 : Shape := ⟨4, ![1, 128, 128, 128]⟩
abbrev S128x128x128 : Shape := ⟨3, ![128, 128, 128]⟩
abbrev S128x256 : Shape := ⟨2, ![128, 256]⟩
abbrev S128x1 : Shape := ⟨2, ![128, 1]⟩
abbrev S256x128 : Shape := ⟨2, ![256, 128]⟩
abbrev S2048x128 : Shape := ⟨2, ![2048, 128]⟩
abbrev S_ : Shape := ⟨0, ![]⟩

abbrev nBuf : Space → Nat
  | .hbm => 56
  | .vmem => 8
  | .smem => 0
  | _ => 0

abbrev bufTy : (tb : Table) → Fin (tcTables nBuf tb) → BufTy
  | .hbm, ⟨0, _⟩ => ⟨S8x256x128, .f32⟩
  | .hbm, ⟨1, _⟩ => ⟨S8x256x256x128, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S1x128, .f32⟩
  | .hbm, ⟨8, _⟩ => ⟨S8x256x128, .f32⟩
  | .hbm, ⟨9, _⟩ => ⟨S2048x128, .f32⟩
  | .hbm, ⟨10, _⟩ => ⟨S_, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S2048x128, .f32⟩
  | .hbm, ⟨23, _⟩ => ⟨S2048x128, .f32⟩
  | .hbm, ⟨24, _⟩ => ⟨S2048x128, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S128, .f32⟩
  | .hbm, ⟨32, _⟩ => ⟨S_, .f32⟩
  | .hbm, ⟨33, _⟩ => ⟨S_, .i1⟩
  | .hbm, ⟨34, _⟩ => ⟨S_, .f32⟩
  | .hbm, ⟨35, _⟩ => ⟨S_, .f32⟩
  | .hbm, ⟨36, _⟩ => ⟨S128, .f32⟩
  | .hbm, ⟨37, _⟩ => ⟨S128, .f32⟩
  | .hbm, ⟨38, _⟩ => ⟨S1x128, .f32⟩
  | .hbm, ⟨39, _⟩ => ⟨S2048x128, .f32⟩
  | .hbm, ⟨40, _⟩ => ⟨S2048x128, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S128, .f32⟩
  | .hbm, ⟨45, _⟩ => ⟨S1x128, .f32⟩
  | .hbm, ⟨46, _⟩ => ⟨S2048x128, .f32⟩
  | .hbm, ⟨47, _⟩ => ⟨S2048x128, .f32⟩
  | .hbm, ⟨48, _⟩ => ⟨S1x128, .f32⟩
  | .hbm, ⟨49, _⟩ => ⟨S2048x128, .f32⟩
  | .hbm, ⟨50, _⟩ => ⟨S2048x128, .f32⟩
  | .hbm, ⟨51, _⟩ => ⟨S1x128, .f32⟩
  | .hbm, ⟨52, _⟩ => ⟨S2048x128, .f32⟩
  | .hbm, ⟨53, _⟩ => ⟨S2048x128, .f32⟩
  | .hbm, ⟨54, _⟩ => ⟨S8x256x128, .f32⟩
  | .hbm, ⟨55, _⟩ => ⟨S8x256x128, .f32⟩
  | .local _ .vmem, ⟨0, _⟩ => ⟨S1x128x256x128, .f32⟩
  | .local _ .vmem, ⟨1, _⟩ => ⟨S1x128x256x128, .f32⟩
  | .local _ .vmem, ⟨2, _⟩ => ⟨S1x256x128, .f32⟩
  | .local _ .vmem, ⟨3, _⟩ => ⟨S1x256x128, .f32⟩
  | .local _ .vmem, ⟨4, _⟩ => ⟨S128x128, .f32⟩
  | .local _ .vmem, ⟨5, _⟩ => ⟨S1x128, .f32⟩
  | .local _ .vmem, ⟨6, _⟩ => ⟨S1x128x128, .f32⟩
  | .local _ .vmem, ⟨7, _⟩ => ⟨S1x128x128, .f32⟩
  | _, _ => ⟨S8x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_cst_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_cst_1 : Ref sig .tc := ⟨.hbm, 26, rfl⟩
abbrev main_call0_v8 : Ref sig .tc := ⟨.hbm, 27, rfl⟩
abbrev main_call0_cst_2 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_cst_3 : Ref sig .tc := ⟨.hbm, 32, rfl⟩
abbrev main_call0_v12 : Ref sig .tc := ⟨.hbm, 33, rfl⟩
abbrev main_call0_cst_4 : Ref sig .tc := ⟨.hbm, 34, rfl⟩
abbrev main_call0_call0_v0 : Ref sig .tc := ⟨.hbm, 35, rfl⟩
abbrev main_call0_call0_v1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_cst_1 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let arg1 : BitVec 32 := BitVec.ofNat 32 (i 1).val
  let c128_i32 : BitVec 32 := 128#32
  let v22 : BitVec 32 := Scalar.muli arg1 c128_i32
  v22
def k0_off1 (i : grid0.Coords) : Fin 3 → Nat :=
  let c0_13 : Index := 0#32
  let arg1 : BitVec 32 := BitVec.ofNat 32 (i 1).val
  let c128_i32 : BitVec 32 := 128#32
  let v22 : BitVec 32 := Scalar.muli arg1 c128_i32
  let v23 : BitVec 32 := v22
  let v24 : Index := Scalar.indexCast v23
  let c0_14 : Index := 0#32
  ![0, v24.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S128x128_S128x128_1_0 : S128x128.Transposes [1, 0] S128x128
  shapeCasts_S128_S1x128 : S128.ShapeCasts S1x128
  inb_S1x128x256x128_S1x128x128x128_0_0_0_0 : ∀ a, (![0, 0, 0, 0] : Fin 4 → Nat) a + S1x128x128x128.size a ≤ S1x128x256x128.size a
  h_S1x128x128x128 : 0 < S1x128x128x128.numel
  shapeCasts_S1x128x128x128_S128x128x128 : S1x128x128x128.ShapeCasts S128x128x128
  reduces_S128x128x128_S128x128 : S128x128x128.Reduces [2] S128x128
  inb_S1x128x256x128_S1x128x128x128_0_0_128_0 : ∀ a, (![0, 0, 128, 0] : Fin 4 → Nat) a + S1x128x128x128.size a ≤ S1x128x256x128.size a
  concatenates_S128x128_S128x128_S128x256_d1 : Shape.Concatenates [S128x128, S128x128] S128x256 1
  reduces_S128x256_S128 : S128x256.Reduces [1] S128
  shapeCasts_S128_S128x1 : S128.ShapeCasts S128x1
  broadcasts_S128x1_S128x256 : S128x1.Broadcasts S128x256
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  h_S1x128x128 : 0 < S1x128x128.numel
  shapeCasts_S1x128x128_S128x128 : S1x128x128.ShapeCasts S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  inb_S1x128x128_S1x128x128_0_0_0 : ∀ a, (![0, 0, 0] : Fin 3 → Nat) a + S1x128x128.size a ≤ S1x128x128.size a
  shapeCasts_S128x128_S1x128x128 : S128x128.ShapeCasts S1x128x128
  shapeCasts_S8x256x128_S2048x128 : S8x256x128.ShapeCasts S2048x128
  reducesTo_S2048x128_S128_d0 : S2048x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S2048x128_0_1 : S1x128.BroadcastsInDim S2048x128 (![0, 1] : Fin 2 → Fin S2048x128.rank)
  shapeCasts_S2048x128_S8x256x128 : S2048x128.ShapeCasts S8x256x128
  dot_S128x256_S256x128_S128x128_1_0_0_1_n_n_wf : DotDims.WF S128x256 S256x128 S128x128 [1] [0] [0] [1] [] []
  dot_S128x128_S128x128_S128x128_1_0_0_1_n_n_wf : DotDims.WF S128x128 S128x128 S128x128 [1] [0] [0] [1] [] []
  hrank0 : 0 < grid0.rank
  k0_mult1_dvd : ∀ i : grid0.Coords, 128 ∣ (k0_mult1 i).toNat
  k0_off1_inb : ∀ i : grid0.Coords, ∀ a, (k0_off1 i) a + S1x128x128.size a ≤ S1x256x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x256x128.size a ≤ S8x256x256x128.size a
  hwx0_0 : ∀ i : grid0.Coords, EltTy.bits .f32 = 32 ∨ (Rect.block (s := S8x256x256x128) S1x128x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x128.size a ≤ S8x256x128.size a
  hwx0_1 : ∀ i : grid0.Coords, EltTy.bits .f32 = 32 ∨ (Rect.block (s := S8x256x128) S1x256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x128.size a ≤ S8x256x128.size a
  hwx0_4 : ∀ i : grid0.Coords, EltTy.bits .f32 = 32 ∨ (Rect.block (s := S8x256x128) S1x128x128.size (cc0_transform_4 i) (hinb0_4 i)).WholeWords (EltTy.packing .f32)

variable [Facts₀]

def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

abbrev win0_0 : Pipeline.Window sig grid0 :=
  Pipeline.Window.ofSpec (Memref.whole main_arg1) S1x128x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x256x128 : Shape := ⟨3, ![8, 256, 128]⟩
abbrev S8x256x256x128 : Shape := ⟨4, ![8, 256, 256, 128]⟩
abbrev S128x128 : Shape := ⟨2, ![128, 128]⟩
abbrev S128 : Shape := ⟨1, ![128]⟩
abbrev S_ : Shape := ⟨0, ![]⟩
abbrev S8x256x256 : Shape := ⟨3, ![8, 256, 256]⟩
abbrev S8x256 : Shape := ⟨2, ![8, 256]⟩
abbrev S8x256x1 : Shape := ⟨3, ![8, 256, 1]⟩
abbrev S1x1x128 : Shape := ⟨3, ![1, 1, 128]⟩
abbrev S2048x128 : Shape := ⟨2, ![2048, 128]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S8x256x128, .f32⟩
  | .hbm, ⟨1, _⟩ => ⟨S8x256x256x128, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S8x256x256x128, .f32⟩
  | .hbm, ⟨7, _⟩ => ⟨S_, .f32⟩
  | .hbm, ⟨8, _⟩ => ⟨S8x256x256, .f32⟩
  | .hbm, ⟨9, _⟩ => ⟨S8x256x256, .f32⟩
  | .hbm, ⟨10, _⟩ => ⟨S_, .f32⟩
  | .hbm, ⟨11, _⟩ => ⟨S8x256, .f32⟩
  | .hbm, ⟨12, _⟩ => ⟨S_, .f32⟩
  | .hbm, ⟨13, _⟩ => ⟨S8x256, .f32⟩
  | .hbm, ⟨14, _⟩ => ⟨S8x256, .f32⟩
  | .hbm, ⟨15, _⟩ => ⟨S8x256x1, .f32⟩
  | .hbm, ⟨16, _⟩ => ⟨S8x256x256, .f32⟩
  | .hbm, ⟨17, _⟩ => ⟨S8x256x256, .f32⟩
  | .hbm, ⟨18, _⟩ => ⟨S8x256x256, .f32⟩
  | .hbm, ⟨19, _⟩ => ⟨S_, .f32⟩
  | .hbm, ⟨20, _⟩ => ⟨S8x256, .f32⟩
  | .hbm, ⟨21, _⟩ => ⟨S8x256x1, .f32⟩
  | .hbm, ⟨22, _⟩ => ⟨S8x256x256, .f32⟩
  | .hbm, ⟨23, _⟩ => ⟨S8x256x256, .f32⟩
  | .hbm, ⟨24, _⟩ => ⟨S8x256x128, .f32⟩
  | .hbm, ⟨25, _⟩ => ⟨S8x256x128, .f32⟩
  | .hbm, ⟨26, _⟩ => ⟨S8x256x128, .f32⟩
  | .hbm, ⟨27, _⟩ => ⟨S1x1x128, .f32⟩
  | .hbm, ⟨28, _⟩ => ⟨S8x256x128, .f32⟩
  | .hbm, ⟨29, _⟩ => ⟨S8x256x128, .f32⟩
  | .hbm, ⟨30, _⟩ => ⟨S_, .f32⟩
  | .hbm, ⟨31, _⟩ => ⟨S8x256x128, .f32⟩
  | .hbm, ⟨32, _⟩ => ⟨S8x256x128, .f32⟩
  | .hbm, ⟨33, _⟩ => ⟨S2048x128, .f32⟩
  | .hbm, ⟨34, _⟩ => ⟨S_, .f32⟩
  | .hbm, ⟨35, _⟩ => ⟨S128, .f32⟩
  | .hbm, ⟨36, _⟩ => ⟨S_, .f32⟩
  | .hbm, ⟨37, _⟩ => ⟨S128, .f32⟩
  | .hbm, ⟨38, _⟩ => ⟨S128, .f32⟩
  | .hbm, ⟨39, _⟩ => ⟨S_, .i32⟩
  | .hbm, ⟨40, _⟩ => ⟨S_, .f32⟩
  | .hbm, ⟨41, _⟩ => ⟨S128, .f32⟩
  | .hbm, ⟨42, _⟩ => ⟨S1x128, .f32⟩
  | .hbm, ⟨43, _⟩ => ⟨S_, .f32⟩
  | .hbm, ⟨44, _⟩ => ⟨S1x128, .f32⟩
  | .hbm, ⟨45, _⟩ => ⟨S1x128, .f32⟩
  | .hbm, ⟨46, _⟩ => ⟨S2048x128, .f32⟩
  | .hbm, ⟨47, _⟩ => ⟨S2048x128, .f32⟩
  | .hbm, ⟨48, _⟩ => ⟨S2048x128, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S128, .f32⟩
  | .hbm, ⟨56, _⟩ => ⟨S_, .f32⟩
  | .hbm, ⟨57, _⟩ => ⟨S_, .i1⟩
  | .hbm, ⟨58, _⟩ => ⟨S_, .f32⟩
  | .hbm, ⟨59, _⟩ => ⟨S_, .f32⟩
  | .hbm, ⟨60, _⟩ => ⟨S128, .f32⟩
  | .hbm, ⟨61, _⟩ => ⟨S128, .f32⟩
  | .hbm, ⟨62, _⟩ => ⟨S1x128, .f32⟩
  | .hbm, ⟨63, _⟩ => ⟨S2048x128, .f32⟩
  | .hbm, ⟨64, _⟩ => ⟨S2048x128, .f32⟩
  | .hbm, ⟨65, _⟩ => ⟨S_, .f32⟩
  | .hbm, ⟨66, _⟩ => ⟨S128, .f32⟩
  | .hbm, ⟨67, _⟩ => ⟨S128, .f32⟩
  | .hbm, ⟨68, _⟩ => ⟨S128, .f32⟩
  | .hbm, ⟨69, _⟩ => ⟨S1x128, .f32⟩
  | .hbm, ⟨70, _⟩ => ⟨S2048x128, .f32⟩
  | .hbm, ⟨71, _⟩ => ⟨S2048x128, .f32⟩
  | .hbm, ⟨72, _⟩ => ⟨S1x128, .f32⟩
  | .hbm, ⟨73, _⟩ => ⟨S2048x128, .f32⟩
  | .hbm, ⟨74, _⟩ => ⟨S2048x128, .f32⟩
  | .hbm, ⟨75, _⟩ => ⟨S1x128, .f32⟩
  | .hbm, ⟨76, _⟩ => ⟨S2048x128, .f32⟩
  | .hbm, ⟨77, _⟩ => ⟨S2048x128, .f32⟩
  | .hbm, ⟨78, _⟩ => ⟨S8x256x128, .f32⟩
  | .hbm, ⟨79, _⟩ => ⟨S8x256x128, .f32⟩
  | _, _ => ⟨S8x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call1_cst : Ref sig .tc := ⟨.hbm, 30, rfl⟩
abbrev main_call1_v0 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_c : Ref sig .tc := ⟨.hbm, 39, rfl⟩
abbrev main_call2_cst : Ref sig .tc := ⟨.hbm, 40, rfl⟩
abbrev main_call2_v0 : Ref sig .tc := ⟨.hbm, 41, rfl⟩
abbrev main_call2_v1 : Ref sig .tc := ⟨.hbm, 42, rfl⟩
abbrev main_call2_cst_0 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_v6 : Ref sig .tc := ⟨.hbm, 48, rfl⟩
abbrev main_call2_v7 : Ref sig .tc := ⟨.hbm, 49, rfl⟩
abbrev main_call2_cst_1 : Ref sig .tc := ⟨.hbm, 50, rfl⟩
abbrev main_call2_v8 : Ref sig .tc := ⟨.hbm, 51, rfl⟩
abbrev main_call2_cst_2 : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_cst_3 : Ref sig .tc := ⟨.hbm, 56, rfl⟩
abbrev main_call2_v12 : Ref sig .tc := ⟨.hbm, 57, rfl⟩
abbrev main_call2_cst_4 : Ref sig .tc := ⟨.hbm, 58, rfl⟩
abbrev main_call2_call0_v0 : Ref sig .tc := ⟨.hbm, 59, rfl⟩
abbrev main_call2_call0_v1 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_cst_4 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩

abbrev nD : Nat := 1
abbrev τ : Topo := Topo.v7x

variable {F : FTy → Type} [FloatOps F]

class Facts₀ : Prop where
  reducesTo_S8x256x256x128_S8x256x256_d3 : S8x256x256x128.ReducesTo [3] S8x256x256
  h_S_ : 0 < S_.numel
  reducesTo_S8x256x256_S8x256_d2 : S8x256x256.ReducesTo [2] S8x256
  bcast_S_S8x256 : S_.BroadcastsInDim S8x256 (![] : Fin 0 → Fin S8x256.rank)
  bcast_S8x256_S8x256x1_0_1 : S8x256.BroadcastsInDim S8x256x1 (![0, 1] : Fin 2 → Fin S8x256x1.rank)
  bcast_S8x256x1_S8x256x256_0_1_2 : S8x256x1.BroadcastsInDim S8x256x256 (![0, 1, 2] : Fin 3 → Fin S8x256x256.rank)
  bcast_S128_S1x1x128_2 : S128.BroadcastsInDim S1x1x128 (![2] : Fin 1 → Fin S1x1x128.rank)
  bcast_S1x1x128_S8x256x128_0_1_2 : S1x1x128.BroadcastsInDim S8x256x128 (![0, 1, 2] : Fin 3 → Fin S8x256x128.rank)
  bcast_S_S8x256x128 : S_.BroadcastsInDim S8x256x128 (![] : Fin 0 → Fin S8x256x128.rank)
  shapeCasts_S8x256x128_S2048x128 : S8x256x128.ShapeCasts S2048x128
  reducesTo_S2048x128_S128_d0 : S2048x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S2048x128_0_1 : S1x128.BroadcastsInDim S2048x128 (![0, 1] : Fin 2 → Fin S2048x128.rank)
  shapeCasts_S2048x128_S8x256x128 : S2048x128.ShapeCasts S8x256x128
  dot_S8x256x256_S8x256x128_S8x256x128_2_1_1_2_0_0_wf : DotDims.WF S8x256x256 S8x256x128 S8x256x128 [2] [1] [1] [2] [0] [0]
  dot_S8x256x128_S128x128_S8x256x128_2_1_01_0_n_n_wf : DotDims.WF S8x256x128 S128x128 S8x256x128 [2] [1] [0, 1] [0] [] []

variable [Facts₀]

def dot_S8x256x256_S8x256x128_S8x256x128_2_1_1_2_0_0 : DotDims S8x256x256 S8x256x128 S8x256x128 where
  lhsContracting := [2]
  rhsContracting := [1]
  lhsNonContracting := [1]
  rhsNonContracting := [2]
  lhsBatch := [0]
  rhsBatch := [0]
  wf := dot_S8x256x256_S8x256x128_S8x256x128_2_1_1_2_0_0_wf
def dot_S8x256x128_S128x128_S8x256x128_2_1_01_0_n_n : DotDims S8x256x128 S128x128 S8x256x128 where
  lhsContracting := [2]
  rhsContracting := [1]
  lhsNonContracting := [0, 1]
  rhsNonContracting := [0]
  lhsBatch := []
  rhsBatch := []
  wf := dot_S8x256x128_S128x128_S8x256x128_2_1_01_0_n_n_wf

class Facts : Prop extends Facts₀ where

variable [Facts]
-- ==== Proof.Spec.lean ====
/-
  The value both programs compute before the batch normalisation, as one function of the inputs.

  For a batch `bi`, a node `r` and an output feature `k`:
    * the edge weight of neighbour `j` is the Euclidean norm of the edge feature vector, `√(∑_d e[bi,r,j,d]²)`;
    * the weights of a node are normalised by a softmax over the neighbours `j`: the row maximum is subtracted,
      the exponential taken, and the row divided by its sum;
    * the neighbours' features are averaged with these weights, `agg[d] = ∑_j w[j] · h[bi,j,d]`;
    * the node's own features are added, the sum is sent through the linear layer `x ↦ x·Wᵀ + b`, and the
      result is clamped below at zero.
  Everything is stated over plain coordinate functions, so that a block of an array and the whole array can both
  be plugged in.
-/
import Idealize.ShloMosaic.PureOps.Ideal
import Idealize.ShloMosaic.Lib.ValueIdx

noncomputable section

open scoped BigOperators

namespace Cert.Spec

open Idealize.ShloMosaic Idealize.ShloMosaic.ValueIdx

/-- The Euclidean norm of row `j` of a `256 × 128` slab. -/
def nrm (erow : Fin 256 → Fin 128 → EReal) (j : Fin 256) : EReal :=
  Ideal.sqrt (∑ d : Fin 128, erow j d * erow j d)

/-- The maximum of a row of 256 weights (folded from the f32 pattern of `-∞`). -/
def rowMax (n : Fin 256 → EReal) : EReal :=
  (Finset.univ : Finset (Fin 256)).fold max (Ideal.ofBits .f32 0xFF800000#32) n

/-- The exponential of a weight less the row maximum. -/
def expo (n : Fin 256 → EReal) (j : Fin 256) : EReal := Ideal.exp (n j - rowMax n)

/-- The softmax of a row of 256 weights. -/
def softmax (n : Fin 256 → EReal) (j : Fin 256) : EReal :=
  Ideal.div (expo n j) (∑ j' : Fin 256, expo n j')

/-- One entry of the result before normalisation: `erow` the node's `256 × 128` edge features, `hall` the
    features of all 256 nodes of the batch, `hrow` the node's own features, `wrow` row `k` of the weight
    matrix, `bias` entry `k` of the bias. -/
def outEntry (erow hall : Fin 256 → Fin 128 → EReal) (hrow wrow : Fin 128 → EReal) (bias : EReal) : EReal :=
  max ((∑ d : Fin 128, (hrow d + ∑ j : Fin 256, softmax (nrm erow) j * hall j d) * wrow d) + bias)
    (Ideal.ofBits .f32 0x00000000#32)

/-- The same by the coordinates of the result entry. -/
def Gc (h : (⟨3, ![8, 256, 128]⟩ : Shape).Idx → EReal) (e : (⟨4, ![8, 256, 256, 128]⟩ : Shape).Idx → EReal)
    (W : (⟨2, ![128, 128]⟩ : Shape).Idx → EReal) (b : (⟨1, ![128]⟩ : Shape).Idx → EReal)
    (bi : Fin 8) (r : Fin 256) (k : Fin 128) : EReal :=
  outEntry (fun j d => e (ix4 bi r j d)) (fun j d => h (ix3 bi j d)) (fun d => h (ix3 bi r d))
    (fun d => W (ix2 k d)) (b (ix1 k))

/-- The whole `8 × 256 × 128` array before normalisation. -/
def G (h : (⟨3, ![8, 256, 128]⟩ : Shape).Idx → EReal) (e : (⟨4, ![8, 256, 256, 128]⟩ : Shape).Idx → EReal)
    (W : (⟨2, ![128, 128]⟩ : Shape).Idx → EReal) (b : (⟨1, ![128]⟩ : Shape).Idx → EReal) :
    (⟨3, ![8, 256, 128]⟩ : Shape).Idx → EReal :=
  fun i => Gc h e W b (i 0) (i 1) (i 2)

theorem G_ix3 (h : (⟨3, ![8, 256, 128]⟩ : Shape).Idx → EReal) (e : (⟨4, ![8, 256, 256, 128]⟩ : Shape).Idx → EReal)
    (W : (⟨2, ![128, 128]⟩ : Shape).Idx → EReal) (b : (⟨1, ![128]⟩ : Shape).Idx → EReal)
    (bi : Fin 8) (r : Fin 256) (k : Fin 128) : G h e W b (ix3 bi r k) = Gc h e W b bi r k := rfl

end Cert.Spec

end
-- ==== Proof.TailK.lean ====
/-
  The kernel program's host operations after its region, as ONE function of the region's result, the node features
  and the two affine parameters: what the last buffer holds after them, whatever the buffers held before.
-/
import proofs.«407254_j43164421325634_3_alg».proof.Proof.Gen.KernelIdeal.Launch
import Idealize.ShloMosaic.Lib.StableHlo.Run

noncomputable section

namespace Cert.KernelIdeal.Tail

open Cert.KernelIdeal Cert.KernelIdeal.Gen Idealize.ShloMosaic Idealize.ShloMosaic.TcCoe Idealize.SL.Sem Idealize.ShloMosaic.StableHlo

variable {F : FTy → Type} [FloatOps F]

/-- The normalisation both programs apply to the `8 × 256 × 128` array `X`: the array is read as `2048 × 128`;
    each of the 128 columns is centred by its mean `∑ x / 2048` and scaled by `1/√(var + ε)`, where the variance is
    the mean of the squared deviations from the column mean (guarded by the degrees-of-freedom test `2048 - 0 > 0`),
    then multiplied by `g`, shifted by `b`, read back as `8 × 256 × 128`, and `h` is added. Never opened:
    both programs apply this same function. -/
def bn (X h : FVec F S8x256x128 .f32) (g b : FVec F S128 .f32) : FVec F S8x256x128 .f32 :=
  let x3 : FVec F S2048x128 .f32 := fun i => shapeCast S2048x128 X shapeCasts_S8x256x128_S2048x128 i
  let v4 : FVec F S128 .f32 := Host.reduceAdd x3 (constant S_ .f32 0x00000000#32) reducesTo_S2048x128_S128_d0 h_S_
  let v6 : FVec F S128 .f32 := Host.divf v4 (broadcastInDim S128 ![] bcast_S_S128 (constant S_ .f32 0x45000000#32))
  let c : IVec S_ 32 := constantI S_ 32 0#32
  let vv0 : FVec F S128 .f32 := Host.reduceAdd x3 (constant S_ .f32 0x00000000#32) reducesTo_S2048x128_S128_d0 h_S_
  let vv3 : FVec F S1x128 .f32 := Host.divf (broadcastInDim S1x128 ![1] bcast_S128_S1x128_1 vv0)
    (broadcastInDim S1x128 ![] bcast_S_S1x128 (constant S_ .f32 0x45000000#32))
  let vv5 : FVec F S2048x128 .f32 := subf x3 (broadcastInDim S2048x128 ![0, 1] bcast_S1x128_S2048x128_0_1 vv3)
  let vv6 : FVec F S2048x128 .f32 := mulf vv5 vv5
  let vv8 : FVec F S_ .f32 := subf (constant S_ .f32 0x45000000#32) (sitofp .f32 c)
  let vv9 : FVec F S128 .f32 := Host.reduceAdd vv6 (constant S_ .f32 0x00000000#32) reducesTo_S2048x128_S128_d0 h_S_
  let vv11 : FVec F S128 .f32 := Host.divf vv9 (broadcastInDim S128 ![] bcast_S_S128 vv8)
  let vv12 : IVec S_ 1 := cmpf .ogt vv8 (constant S_ .f32 0x00000000#32)
  let v7 : FVec F S128 .f32 := select (broadcastInDim S128 ![] bcast_S_S128 vv12) vv11
    (broadcastInDim S128 ![] bcast_S_S128 (id (constant S_ .f32 0x7FC00000#32)))
  let v10 : FVec F S2048x128 .f32 := subf x3 (broadcastInDim S2048x128 ![0, 1] bcast_S1x128_S2048x128_0_1
    (broadcastInDim S1x128 ![1] bcast_S128_S1x128_1 v6))
  let v12 : FVec F S128 .f32 := addf v7 (broadcastInDim S128 ![] bcast_S_S128 (constant S_ .f32 0x3727C5AC#32))
  let v13 : FVec F S128 .f32 := Host.rsqrt v12
  let v16 : FVec F S2048x128 .f32 := mulf v10 (broadcastInDim S2048x128 ![0, 1] bcast_S1x128_S2048x128_0_1
    (broadcastInDim S1x128 ![1] bcast_S128_S1x128_1 v13))
  let v19 : FVec F S2048x128 .f32 := mulf v16 (broadcastInDim S2048x128 ![0, 1] bcast_S1x128_S2048x128_0_1
    (broadcastInDim S1x128 ![1] bcast_S128_S1x128_1 g))
  let v22 : FVec F S2048x128 .f32 := addf v19 (broadcastInDim S2048x128 ![0, 1] bcast_S1x128_S2048x128_0_1
    (broadcastInDim S1x128 ![1] bcast_S128_S1x128_1 b))
  addf (fun i => shapeCast S8x256x128 v22 shapeCasts_S2048x128_S8x256x128 i) h

/-- The three stretches of host operations after the region, run from any buffer contents `W`, leave the result
    buffer at `bn` of the region's result buffer, the node features and the affine parameters as `W` has them. -/
theorem tail_eq (W : Valuation τ sig (Elt F)) :
    after (List.flatten [hostOps1, hostOps1_1, hostOps1_2]) W (Proc.devRef .tc main_v24)
      = bn (W (Proc.devRef .tc main_v2)) (W (Proc.devRef .tc main_arg0)) (W (Proc.devRef .tc main_arg4)) (W (Proc.devRef .tc main_arg5)) := by
  simp only [hostOps1, hostOps1_1, hostOps1_2, List.flatten_cons, List.flatten_nil, List.append_nil, List.cons_append, List.nil_append]
  after_results_simp
  rfl

end Cert.KernelIdeal.Tail

end
-- ==== Proof.KernelPiece.lean ====
/-
  What the kernel body leaves in its output block, as a term of the four input blocks it is called with, and where
  the body's partial loads read those blocks.

  The body loads the edge block in two halves along the neighbour axis (neighbours 0–127 and 128–255), the node
  block whole and once more at the rows of the point's own 128 nodes, the transposed weights and the bias row whole;
  its one store covers the output block. So the block it leaves is the body's arithmetic applied to those loads.
-/
import proofs.«407254_j43164421325634_3_alg».proof.Proof.Gen.KernelIdeal.Frame
import Idealize.ShloMosaic.Lib.Pipeline.Value
import Idealize.ShloMosaic.Lib.ValueIdx

set_option maxRecDepth 16384

noncomputable section

namespace Cert.KernelIdeal.Piece

open Cert.KernelIdeal Cert.KernelIdeal.Gen Idealize.ShloMosaic Idealize.ShloMosaic.TcCoe Idealize.ShloMosaic.Tactic Idealize.SL.Sem
open Idealize.ShloMosaic.ValueIdx

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The first half of the edge block: neighbours 0–127. -/
abbrev loadLo (x0 : Vec F S1x128x256x128 .f32) : Vec F S1x128x128x128 .f32 :=
  View.ld x0 (Rect.unit (s := S1x128x256x128) ![0, 0, 0, 0] S1x128x128x128.size inb_S1x128x256x128_S1x128x128x128_0_0_0_0)
/-- The second half of the edge block: neighbours 128–255. -/
abbrev loadHi (x0 : Vec F S1x128x256x128 .f32) : Vec F S1x128x128x128 .f32 :=
  View.ld x0 (Rect.unit (s := S1x128x256x128) ![0, 0, 128, 0] S1x128x128x128.size inb_S1x128x256x128_S1x128x128x128_0_0_128_0)
/-- The point's own 128 rows of the node block. -/
abbrev loadOwn (i : grid0.Coords) (x1 : Vec F S1x256x128 .f32) : Vec F S1x128x128 .f32 :=
  View.ld x1 (Rect.unit (s := S1x256x128) (k0_off1 i) S1x128x128.size (k0_off1_inb i))

/-- The output block the body leaves: its arithmetic applied to its loads. -/
theorem out_eq (c : Dev nD) (i : grid0.Coords) (arg2 : Memref sig .tc .vmem S1x128x256x128 .f32) (harg2 : arg2.IsWhole) (arg3 : Memref sig .tc .vmem S1x256x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128x128 .f32) (harg6 : arg6.IsWhole)
    (x0 : Vec F S1x128x256x128 .f32) (x1 : Vec F S1x256x128 .f32) (x2 : Vec F S128x128 .f32) (x3 : Vec F S1x128 .f32) :
    out0_A_4 c i arg2 harg2 arg3 harg3 arg4 harg4 arg5 harg5 arg6 harg6 x0 x1 x2 x3
      = k0_pay1 (k0_pay2 (loadLo x0) (loadHi x0) x1 (loadOwn i x1) x2) (k0_pay3 x3) := by
  unfold out0_A_4
  rw [View.read_writes_eq_canon _ _ _ (cover0_A_4 c i arg2 harg2 arg3 harg3 arg4 harg4 arg5 harg5 arg6 harg6 x0 x1 x2 x3)]
  unfold kernelRun0_A
  dsimp only
  sl_unfold_run_names
  rw [View.canon_unit_zero hz3]
  simp only [View.readAt_eq_ld, harg2.read_unread, harg3.read_unread, harg4.read_unread, harg5.read_unread,
    View.ld_unit_zero (S := S1x256x128) hz3, View.ld_unit_zero (S := S128x128) hz2, View.ld_unit_zero (S := S1x128) hz2]

/-- Neighbour `j` of the first half is neighbour `j` of the block. -/
theorem loadLo_apply (x0 : Vec F S1x128x256x128 .f32) (p j d : Fin 128) :
    loadLo x0 (ix4 (0 : Fin 1) p j d) = x0 (ix4 (0 : Fin 1) p (⟨j.val, by omega⟩ : Fin 256) d) := by
  show x0 _ = x0 _
  congr 1
  funext a
  apply Fin.ext
  match a with
  | ⟨0, _⟩ => show (0 : ℕ) + 1 * (0 : ℕ) = 0; omega
  | ⟨1, _⟩ => show (0 : ℕ) + 1 * p.val = p.val; omega
  | ⟨2, _⟩ => show (0 : ℕ) + 1 * j.val = j.val; omega
  | ⟨3, _⟩ => show (0 : ℕ) + 1 * d.val = d.val; omega

/-- Neighbour `j` of the second half is neighbour `j + 128` of the block. -/
theorem loadHi_apply (x0 : Vec F S1x128x256x128 .f32) (p j d : Fin 128) :
    loadHi x0 (ix4 (0 : Fin 1) p j d) = x0 (ix4 (0 : Fin 1) p (⟨j.val + 128, by omega⟩ : Fin 256) d) := by
  show x0 _ = x0 _
  congr 1
  funext a
  apply Fin.ext
  match a with
  | ⟨0, _⟩ => show (0 : ℕ) + 1 * (0 : ℕ) = 0; omega
  | ⟨1, _⟩ => show (0 : ℕ) + 1 * p.val = p.val; omega
  | ⟨2, _⟩ => show (128 : ℕ) + 1 * j.val = j.val + 128; omega
  | ⟨3, _⟩ => show (0 : ℕ) + 1 * d.val = d.val; omega

/-- The row offset of the own-rows load is 128 times the point's second grid coordinate. -/
theorem off1_val (i : grid0.Coords) : k0_off1 i (1 : Fin 3) = 128 * (i 1).val := by
  have h : (i 1).val < 2 := (i 1).isLt
  unfold k0_off1
  rcases (by omega : (i 1).val = 0 ∨ (i 1).val = 1) with h0 | h0 <;> simp only [h0] <;> rfl

/-- Row `p` of the own-rows load is row `128·i₁ + p` of the node block. -/
theorem loadOwn_apply (i : grid0.Coords) (x1 : Vec F S1x256x128 .f32) (p d : Fin 128) (r : Fin 256)
    (hr : r.val = 128 * (i 1).val + p.val) :
    loadOwn i x1 (ix3 (0 : Fin 1) p d) = x1 (ix3 (0 : Fin 1) r d) := by
  show x1 _ = x1 _
  congr 1
  funext a
  apply Fin.ext
  match a with
  | ⟨0, _⟩ => show k0_off1 i (0 : Fin 3) + 1 * (0 : ℕ) = 0; rfl
  | ⟨1, _⟩ => show k0_off1 i (1 : Fin 3) + 1 * p.val = r.val; rw [off1_val, hr]; omega
  | ⟨2, _⟩ => show k0_off1 i (2 : Fin 3) + 1 * d.val = d.val; show (0 : ℕ) + 1 * d.val = d.val; omega

end Cert.KernelIdeal.Piece

end
-- ==== Proof.KernelReads.lean ====
/-
  Where each input block of the kernel sits in the array it is cut from, entry by entry.

  The grid has 8 × 2 points; point `t` works on batch `t / 2` and on the 128 nodes `128·(t % 2) … 128·(t % 2) + 127`.
  Its edge block is rows `128·(t % 2) + p` of batch `t / 2` of the edge array, its node block is the whole batch of
  the node features, and the weight and bias blocks are the whole (transposed) weight matrix and the bias row.
  The two small arrays are made by host operations before the region: the weight matrix transposed, and the bias
  vector read as one row.
-/
import proofs.«407254_j43164421325634_3_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Reads

open Cert.KernelIdeal Cert.KernelIdeal.Gen Idealize.ShloMosaic Idealize.ShloMosaic.TcCoe Idealize.ShloMosaic.Tactic Idealize.SL.Sem
open Idealize.ShloMosaic.ValueIdx Idealize.ShloMosaic.StableHlo
open Idealize.ShloMosaic.Pipeline (Dat Cfg Window)

variable {F : FTy → Type} [FloatOps F]
variable (m : (ℓ : Loc nD τ sig) → Buf (Elt F) ℓ)

/-- The block index of every window at every grid point, and the point's second grid coordinate. -/
theorem idx_facts : ∀ t : Fin cfg0.N,
    win0_0.index t (0 : Fin 4) = t.val / 2 ∧ win0_0.index t (1 : Fin 4) = t.val % 2 ∧ win0_0.index t (2 : Fin 4) = 0 ∧ win0_0.index t (3 : Fin 4) = 0
    ∧ win0_1.index t (0 : Fin 3) = t.val / 2 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 2 ∧ win0_4.index t (1 : Fin 3) = t.val % 2 ∧ win0_4.index t (2 : Fin 3) = 0
    ∧ (grid0.coords t (1 : Fin 2)).val = t.val % 2 :=
  (by decide +kernel : ∀ t : Fin grid0.N, _)

/-- The four input blocks at a point and the arrays they are cut from, at their literal types. -/
abbrev eblk (c : Dev nD) (t : Fin cfg0.N) : Vec F S1x128x256x128 .f32 := iblk m c 0 t
abbrev hblk (c : Dev nD) (t : Fin cfg0.N) : Vec F S1x256x128 .f32 := iblk m c 1 t
abbrev wblk (c : Dev nD) (t : Fin cfg0.N) : Vec F S128x128 .f32 := iblk m c 2 t
abbrev bblk (c : Dev nD) (t : Fin cfg0.N) : Vec F S1x128 .f32 := iblk m c 3 t
abbrev earr (c : Dev nD) : Vec F S8x256x256x128 .f32 := V m c main_arg1
abbrev harr (c : Dev nD) : Vec F S8x256x128 .f32 := V m c main_arg0
abbrev warr (c : Dev nD) : Vec F S128x128 .f32 := V m c main_v0
abbrev barr (c : Dev nD) : Vec F S1x128 .f32 := V m c main_v1

/-- The edge block at point `t`: row `p` is node `128·(t % 2) + p` of batch `t / 2`. -/
theorem eblk_apply (c : Dev nD) (t : Fin cfg0.N) (p : Fin 128) (j : Fin 256) (d : Fin 128) (bi : Fin 8) (r : Fin 256)
    (hbi : bi.val = t.val / 2) (hr : r.val = 128 * (t.val % 2) + p.val) :
    eblk m c t (ix4 (0 : Fin 1) p j d) = earr m c (ix4 bi r j d) := by
  obtain ⟨e0, e1, e2, e3, -⟩ := idx_facts t
  unfold eblk iblk
  rw [View.read_apply]
  show V m c main_arg1 _ = V m c main_arg1 _
  congr 1
  funext a
  apply Fin.ext
  match a with
  | ⟨0, _⟩ => show win0_0.index t (0 : Fin 4) * 1 + 1 * (0 : ℕ) = bi.val; rw [e0, hbi]; omega
  | ⟨1, _⟩ => show win0_0.index t (1 : Fin 4) * 128 + 1 * p.val = r.val; rw [e1, hr]; omega
  | ⟨2, _⟩ => show win0_0.index t (2 : Fin 4) * 256 + 1 * j.val = j.val; rw [e2]; omega
  | ⟨3, _⟩ => show win0_0.index t (3 : Fin 4) * 128 + 1 * d.val = d.val; rw [e3]; omega

/-- The node block at point `t` is batch `t / 2` of the node features. -/
theorem hblk_apply (c : Dev nD) (t : Fin cfg0.N) (j : Fin 256) (d : Fin 128) (bi : Fin 8) (hbi : bi.val = t.val / 2) :
    hblk m c t (ix3 (0 : Fin 1) j d) = harr m c (ix3 bi j d) := by
  obtain ⟨-, -, -, -, e0, e1, e2, -⟩ := idx_facts t
  unfold hblk iblk
  rw [View.read_apply]
  show V m c main_arg0 _ = V m c main_arg0 _
  congr 1
  funext a
  apply Fin.ext
  match a with
  | ⟨0, _⟩ => show win0_1.index t (0 : Fin 3) * 1 + 1 * (0 : ℕ) = bi.val; rw [e0, hbi]; omega
  | ⟨1, _⟩ => show win0_1.index t (1 : Fin 3) * 256 + 1 * j.val = j.val; rw [e1]; omega
  | ⟨2, _⟩ => show win0_1.index t (2 : Fin 3) * 128 + 1 * d.val = d.val; rw [e2]; omega

/-- The weight block is the whole transposed weight matrix at every point. -/
theorem wblk_apply (c : Dev nD) (t : Fin cfg0.N) (d k : Fin 128) :
    wblk m c t (ix2 d k) = warr m c (ix2 d k) := by
  obtain ⟨-, -, -, -, -, -, -, e0, e1, -⟩ := idx_facts t
  unfold wblk iblk
  rw [View.read_apply]
  show V m c main_v0 _ = V m c main_v0 _
  congr 1
  funext a
  apply Fin.ext
  match a with
  | ⟨0, _⟩ => show win0_2.index t (0 : Fin 2) * 128 + 1 * d.val = d.val; rw [e0]; omega
  | ⟨1, _⟩ => show win0_2.index t (1 : Fin 2) * 128 + 1 * k.val = k.val; rw [e1]; omega

/-- The bias block is the whole bias row at every point. -/
theorem bblk_apply (c : Dev nD) (t : Fin cfg0.N) (k : Fin 128) :
    bblk m c t (ix2 (0 : Fin 1) k) = barr m c (ix2 (0 : Fin 1) k) := by
  obtain ⟨-, -, -, -, -, -, -, -, -, e0, e1, -⟩ := idx_facts t
  unfold bblk iblk
  rw [View.read_apply]
  show V m c main_v1 _ = V m c main_v1 _
  congr 1
  funext a
  apply Fin.ext
  match a with
  | ⟨0, _⟩ => show win0_3.index t (0 : Fin 2) * 1 + 1 * (0 : ℕ) = 0; rw [e0]
  | ⟨1, _⟩ => show win0_3.index t (1 : Fin 2) * 128 + 1 * k.val = k.val; rw [e1]; omega

/-- The two host operations before the region leave the transposed weight matrix in the third window's array. -/
theorem warr_eq (c : Dev nD) :
    warr m c = transpose S128x128 [1, 0] (m ((c : Thread nD τ).loc main_arg2)) transposes_S128x128_S128x128_1_0 := by
  show StableHlo.after (List.flatten [hostOps0]) (fun b => m (c, b)) (Proc.devRef .tc main_v0) = _
  simp only [hostOps0, List.flatten_cons, List.flatten_nil, List.append_nil]
  after_results

/-- … and the bias vector, read as one row, in the fourth window's array. -/
theorem barr_eq (c : Dev nD) :
    barr m c = fun i => shapeCast S1x128 (m ((c : Thread nD τ).loc main_arg3)) shapeCasts_S128_S1x128 i := by
  show StableHlo.after (List.flatten [hostOps0]) (fun b => m (c, b)) (Proc.devRef .tc main_v1) = _
  simp only [hostOps0, List.flatten_cons, List.flatten_nil, List.append_nil]
  after_results
  rfl

/-- Entry `(d, k)` of the transposed weights is entry `(k, d)` of the weight matrix. -/
theorem warr_apply (c : Dev nD) (d k : Fin 128) :
    warr m c (ix2 d k) = (m ((c : Thread nD τ).loc main_arg2) : Vec F S128x128 .f32) (ix2 k d) := by
  rw [warr_eq]
  exact transpose_ix2_apply _ _ d k

/-- Entry `(0, k)` of the bias row is entry `k` of the bias vector. -/
theorem barr_apply (c : Dev nD) (k : Fin 128) :
    barr m c (ix2 (0 : Fin 1) k) = (m ((c : Thread nD τ).loc main_arg3) : Vec F S128 .f32) (ix1 k) := by
  rw [barr_eq]
  exact shapeCast_a_1a_apply _ _ (0 : Fin 1) k

theorem harr_eq (c : Dev nD) : harr m c = m ((c : Thread nD τ).loc main_arg0) := V_main_arg0 m c
theorem earr_eq (c : Dev nD) : earr m c = m ((c : Thread nD τ).loc main_arg1) := V_main_arg1 m c

end Cert.KernelIdeal.Reads

end
-- ==== Proof.LibColumns.lean ====
/-
  Two layout operations read at an entry, for a column kept as an [a, 1] matrix — what a row reduction with
  kept dimensions passes through on its way back over the rows: a vector of a entries cast to one column, and
  one column laid along every column of an a × b matrix. Stated for any element type and any extents.
-/
import Idealize.ShloMosaic.Lib.Pipeline.Value
import Idealize.ShloMosaic.Lib.ValueIdx

namespace Cert.Lib.Columns

open Idealize.ShloMosaic Idealize.ShloMosaic.ValueIdx

variable {α : Type}

/-- An `[a]` array cast to `[a, 1]` reads, at `(i, u)`, the operand at `i`, whatever the unit coordinate `u`:
    both indices have the same row-major position, i · 1 + 0 = i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Columns
-- ==== Proof.KernelPayload.lean ====
/-
  What the kernel body's arithmetic computes at ONE entry of its output block, read at the ideal values.

  For the node in row `p` of the block and the output feature `k`: the two 128-wide halves of the node's
  256 × 128 edge features are squared and summed over the feature axis and laid side by side (the squared
  norms of the 256 neighbours), the square root taken, the row's maximum subtracted, the exponential taken
  and the row divided by its sum (a softmax over the neighbours); the 256 node feature rows are averaged with
  these weights (a matrix product into a zero accumulator), the node's own row is added, the sum is multiplied
  by the transposed weight matrix (again into a zero accumulator), the bias row is added and the result
  clamped below at zero. Each layout operation (a unit axis dropped or added, a concatenation, a column
  broadcast along its row) reads one entry of its operand; each reduction over one axis is the sum, or the
  fold of `max`, over that axis's coordinates; each matrix product is the sum over the contraction
  coordinate. Composed, the entry is `Cert.Spec.outEntry` of the coordinate functions of the loaded blocks.
-/
import proofs.«407254_j43164421325634_3_alg».proof.Proof.Gen.KernelIdeal.Skeleton
import proofs.«407254_j43164421325634_3_alg».proof.Proof.Spec
import proofs.«407254_j43164421325634_3_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-! ## The reductions over one axis, at literal shapes and indices written by coordinates -/

/-- The sum over the last axis of a 128 × 128 × 128 array, at `(p, j)`: the sum over `d` of the entries `(p, j, d)`. -/
theorem sumLast_apply (x : FVec Ideal S128x128x128 .f32) (h : S128x128x128.Reduces [2] S128x128) (p j : Fin 128) :
    multiReduction .add [2] S128x128 x 0x00000000#32 h (.inl rfl) rfl (ix2 p j) = ∑ d : Fin 128, x (ix3 p j d) := by
  refine (Ideal.multiReduction_add_single x _ h _ _ _).trans ?_
  refine Finset.sum_congr rfl fun d _ => congrArg x ?_
  funext c; apply Fin.ext
  match c with
  | ⟨0, _⟩ => rfl
  | ⟨1, _⟩ => rfl
  | ⟨2, _⟩ => rfl

/-- The sum over the rows' entries of a 128 × 256 matrix, at `p`: the sum over `j` of the entries `(p, j)`. -/
theorem rowSum_apply (x : FVec Ideal S128x256 .f32) (h : S128x256.Reduces [1] S128) (p : Fin 128) :
    multiReduction .add [1] S128 x 0x00000000#32 h (.inl rfl) rfl (ix1 p) = ∑ j : Fin 256, x (ix2 p j) := by
  refine (Ideal.multiReduction_add_single x _ h _ _ _).trans ?_
  refine Finset.sum_congr rfl fun d _ => congrArg x ?_
  funext c; apply Fin.ext
  match c with
  | ⟨0, _⟩ => rfl
  | ⟨1, _⟩ => rfl

/-- The maximum over the rows' entries of a 128 × 256 matrix, at `p`: the fold of `max` over `j` of the entries `(p, j)`. -/
theorem rowMax_apply (x : FVec Ideal S128x256 .f32) (h : S128x256.Reduces [1] S128) (p : Fin 128) :
    multiReduction .maximumf [1] S128 x 0xFF800000#32 h (.inl rfl) rfl (ix1 p)
      = Cert.Spec.rowMax (fun j => x (ix2 p j)) := by
  refine (Ideal.multiReduction_maximumf_single x _ h _ _ _).trans ?_
  unfold Cert.Spec.rowMax
  refine congrArg (Finset.fold max _ · _) ?_
  funext d
  refine congrArg x ?_
  funext c; apply Fin.ext
  match c with
  | ⟨0, _⟩ => rfl
  | ⟨1, _⟩ => rfl

/-! ## Two 128 × 128 matrices laid side by side -/

/-- Left of column 128 the concatenation reads the first matrix at the same place. -/
theorem concat_left (x₁ x₂ : FVec Ideal S128x128 .f32) (h : Shape.Concatenates [S128x128, S128x128] S128x256 1)
    (p : Fin 128) (j : Fin 256) (hj : j.val < 128) :
    concatenate S128x256 1 [⟨S128x128, x₁⟩, ⟨S128x128, x₂⟩] h (ix2 p j) = x₁ (ix2 p ⟨j.val, hj⟩) :=
  concatenate_pair_apply_left 1 x₁ x₂ h (ix2 p j) rfl (ix2 p ⟨j.val, hj⟩) fun b =>
    match b with
    | ⟨0, _⟩ => rfl
    | ⟨1, _⟩ => rfl

/-- From column 128 on it reads the second matrix, 128 columns to the left. -/
theorem concat_right (x₁ x₂ : FVec Ideal S128x128 .f32) (h : Shape.Concatenates [S128x128, S128x128] S128x256 1)
    (p : Fin 128) (j : Fin 256) (hj : 128 ≤ j.val) :
    concatenate S128x256 1 [⟨S128x128, x₁⟩, ⟨S128x128, x₂⟩] h (ix2 p j)
      = x₂ (ix2 p ⟨j.val - 128, by have := j.isLt; omega⟩) :=
  concatenate_pair_apply_right 1 x₁ x₂ h (ix2 p j) rfl rfl (ix2 p ⟨j.val - 128, by have := j.isLt; omega⟩)
    (fun b hb =>
      match b, hb with
      | ⟨0, _⟩, _ => rfl
      | ⟨1, _⟩, hb => absurd rfl hb)
    (by show j.val - 128 + 128 = j.val; omega)

/-! ## The two matrix products read at an entry -/

/-- The dimension numbers of the 128 × 256 by 256 × 128 product. -/
abbrev D₁ := dot_S128x256_S256x128_S128x128_1_0_0_1_n_n
/-- The dimension numbers of the 128 × 128 by 128 × 128 product. -/
abbrev D₂ := dot_S128x128_S128x128_S128x128_1_0_0_1_n_n

theorem lhs₁_0 (j : S128x128.Idx) (k : D₁.contr.Idx) : (D₁.lhsIdx j k 0 : ℕ) = j 0 := by
  simp [DotDims.lhsIdx, D₁, dot_S128x256_S256x128_S128x128_1_0_0_1_n_n]; rfl
theorem lhs₁_1 (j : S128x128.Idx) (k : D₁.contr.Idx) : (D₁.lhsIdx j k 1 : ℕ) = k ⟨0, by decide⟩ := by
  simp [DotDims.lhsIdx, D₁, dot_S128x256_S256x128_S128x128_1_0_0_1_n_n]; rfl
theorem rhs₁_0 (j : S128x128.Idx) (k : D₁.contr.Idx) : (D₁.rhsIdx j k 0 : ℕ) = k ⟨0, by decide⟩ := by
  simp [DotDims.rhsIdx, D₁, dot_S128x256_S256x128_S128x128_1_0_0_1_n_n]; rfl
theorem rhs₁_1 (j : S128x128.Idx) (k : D₁.contr.Idx) : (D₁.rhsIdx j k 1 : ℕ) = j 1 := by
  simp [DotDims.rhsIdx, D₁, dot_S128x256_S256x128_S128x128_1_0_0_1_n_n]; rfl

theorem lhs₂_0 (j : S128x128.Idx) (k : D₂.contr.Idx) : (D₂.lhsIdx j k 0 : ℕ) = j 0 := by
  simp [DotDims.lhsIdx, D₂, dot_S128x128_S128x128_S128x128_1_0_0_1_n_n]; rfl
theorem lhs₂_1 (j : S128x128.Idx) (k : D₂.contr.Idx) : (D₂.lhsIdx j k 1 : ℕ) = k ⟨0, by decide⟩ := by
  simp [DotDims.lhsIdx, D₂, dot_S128x128_S128x128_S128x128_1_0_0_1_n_n]; rfl
theorem rhs₂_0 (j : S128x128.Idx) (k : D₂.contr.Idx) : (D₂.rhsIdx j k 0 : ℕ) = k ⟨0, by decide⟩ := by
  simp [DotDims.rhsIdx, D₂, dot_S128x128_S128x128_S128x128_1_0_0_1_n_n]; rfl
theorem rhs₂_1 (j : S128x128.Idx) (k : D₂.contr.Idx) : (D₂.rhsIdx j k 1 : ℕ) = j 1 := by
  simp [DotDims.rhsIdx, D₂, dot_S128x128_S128x128_S128x128_1_0_0_1_n_n]; rfl

/-- The 128 × 256 by 256 × 128 product into the zero accumulator, at `(p, d)`: the sum over the 256 contracted
    coordinates of the products of row `p` of the left and column `d` of the right operand. -/
theorem matmul1_apply (w : FVec Ideal S128x256 .f32) (hall : FVec Ideal S256x128 .f32) (p d : Fin 128) :
    matmul D₁ none w hall (constant S128x128 .f32 0x00000000#32) (ix2 p d)
      = ∑ j : Fin 256, w (ix2 p j) * hall (ix2 j d) := by
  refine (Ideal.matmul_constant_zero_apply D₁ none w hall _).trans ?_
  rw [← Equiv.sum_comp (contrEquiv1 D₁ 256 (by decide) (by decide)).symm]
  refine Finset.sum_congr rfl fun j _ => ?_
  congr 2
  · apply Shape.idx_ext₂
    · rw [lhs₁_0]
    · rw [lhs₁_1, contrEquiv1_symm_val]
  · apply Shape.idx_ext₂
    · rw [rhs₁_0, contrEquiv1_symm_val]
    · rw [rhs₁_1]

/-- The 128 × 128 by 128 × 128 product into the zero accumulator, at `(p, k)`. -/
theorem matmul2_apply (a b : FVec Ideal S128x128 .f32) (p k : Fin 128) :
    matmul D₂ none a b (constant S128x128 .f32 0x00000000#32) (ix2 p k)
      = ∑ d : Fin 128, a (ix2 p d) * b (ix2 d k) := by
  refine (Ideal.matmul_constant_zero_apply D₂ none a b _).trans ?_
  rw [← Equiv.sum_comp (contrEquiv1 D₂ 128 (by decide) (by decide)).symm]
  refine Finset.sum_congr rfl fun j _ => ?_
  congr 2
  · apply Shape.idx_ext₂
    · rw [lhs₂_0]
    · rw [lhs₂_1, contrEquiv1_symm_val]
  · apply Shape.idx_ext₂
    · rw [rhs₂_0, contrEquiv1_symm_val]
    · rw [rhs₂_1]

/-! ## The body's value cut into its stages -/

/-- The squared norms of the 256 neighbours' edge features, for each of the block's 128 nodes: both halves
    squared, summed over the feature axis and laid side by side. -/
def sqn (v0 v4 : Vec Ideal S1x128x128x128 .f32) : FVec Ideal S128x256 .f32 :=
  concatenate S128x256 1
    [⟨S128x128, multiReduction .add [2] S128x128
        (mulf (shapeCast S128x128x128 v0 shapeCasts_S1x128x128x128_S128x128x128)
          (shapeCast S128x128x128 v0 shapeCasts_S1x128x128x128_S128x128x128))
        0x00000000#32 reduces_S128x128x128_S128x128 (.inl rfl) rfl⟩,
     ⟨S128x128, multiReduction .add [2] S128x128
        (mulf (shapeCast S128x128x128 v4 shapeCasts_S1x128x128x128_S128x128x128)
          (shapeCast S128x128x128 v4 shapeCasts_S1x128x128x128_S128x128x128))
        0x00000000#32 reduces_S128x128x128_S128x128 (.inl rfl) rfl⟩]
    concatenates_S128x128_S128x128_S128x256_d1

/-- Each row's maximum, laid along the row. -/
def mx (y : FVec Ideal S128x256 .f32) : FVec Ideal S128x256 .f32 :=
  broadcastTo S128x256
    (shapeCast S128x1 (multiReduction .maximumf [1] S128 y 0xFF800000#32 reduces_S128x256_S128 (.inl rfl) rfl)
      shapeCasts_S128_S128x1)
    broadcasts_S128x1_S128x256

/-- The exponential of each entry less its row's maximum. -/
def ex (y : FVec Ideal S128x256 .f32) : FVec Ideal S128x256 .f32 := exp (subf y (mx y))

/-- Each row's sum, laid along the row. -/
def sm (z : FVec Ideal S128x256 .f32) : FVec Ideal S128x256 .f32 :=
  broadcastTo S128x256
    (shapeCast S128x1 (multiReduction .add [1] S128 z 0x00000000#32 reduces_S128x256_S128 (.inl rfl) rfl)
      shapeCasts_S128_S128x1)
    broadcasts_S128x1_S128x256

/-- The softmax of the rows of the square roots. -/
def smx (x : FVec Ideal S128x256 .f32) : FVec Ideal S128x256 .f32 :=
  divf (ex (sqrt x)) (sm (ex (sqrt x)))

/-- The weighted average of the node features, the node's own features added, times the transposed weights. -/
def lin (w : FVec Ideal S128x256 .f32) (v19 : Vec Ideal S1x256x128 .f32) (v25 : Vec Ideal S1x128x128 .f32)
    (v28 : Vec Ideal S128x128 .f32) : FVec Ideal S128x128 .f32 :=
  matmul D₂ none
    (addf (shapeCast S128x128 v25 shapeCasts_S1x128x128_S128x128 : FVec Ideal S128x128 .f32)
      (matmul D₁ none w (shapeCast S256x128 v19 shapeCasts_S1x256x128_S256x128 : FVec Ideal S256x128 .f32)
        (constant S128x128 .f32 0x00000000#32)))
    (shapeCast S128x128 v28 shapeCasts_S128x128_S128x128 : FVec Ideal S128x128 .f32) (constant S128x128 .f32 0x00000000#32)

/-- The body's second payload is these stages composed. -/
theorem pay2_eq (v0 v4 : Vec Ideal S1x128x128x128 .f32) (v19 : Vec Ideal S1x256x128 .f32) (v25 : Vec Ideal S1x128x128 .f32)
    (v28 : Vec Ideal S128x128 .f32) :
    k0_pay2 (F := Ideal) v0 v4 v19 v25 v28 = lin (smx (sqn v0 v4)) v19 v25 v28 := rfl

/-! ## Each stage read at an entry -/

/-- The squared norm of neighbour `j` of node `p`, when the two loaded halves hold rows `0 … 127` and
    `128 … 255` of the node's edge features `erow`. -/
theorem sqn_apply (v0 v4 : Vec Ideal S1x128x128x128 .f32) (p : Fin 128) (erow : Fin 256 → Fin 128 → EReal)
    (h0 : ∀ (j d : Fin 128), v0 (ix4 (0 : Fin 1) p j d) = erow ⟨j.val, by omega⟩ d)
    (h4 : ∀ (j d : Fin 128), v4 (ix4 (0 : Fin 1) p j d) = erow ⟨j.val + 128, by omega⟩ d) (j : Fin 256) :
    sqn v0 v4 (ix2 p j) = ∑ d : Fin 128, erow j d * erow j d := by
  unfold sqn
  by_cases hj : j.val < 128
  · refine (concat_left _ _ _ p j hj).trans ?_
    refine (sumLast_apply _ _ p ⟨j.val, hj⟩).trans ?_
    refine Finset.sum_congr rfl fun d _ => ?_
    have e : shapeCast S128x128x128 v0 shapeCasts_S1x128x128x128_S128x128x128 (ix3 p ⟨j.val, hj⟩ d) = erow j d :=
      (shapeCast_1abc_abc_apply v0 _ p ⟨j.val, hj⟩ d).trans (h0 ⟨j.val, hj⟩ d)
    exact congrArg₂ (· * ·) e e
  · have hj' : 128 ≤ j.val := Nat.le_of_not_lt hj
    have hlt : j.val - 128 < 128 := by have := j.isLt; omega
    refine (concat_right _ _ _ p j hj').trans ?_
    refine (sumLast_apply _ _ p ⟨j.val - 128, hlt⟩).trans ?_
    refine Finset.sum_congr rfl fun d _ => ?_
    have e : shapeCast S128x128x128 v4 shapeCasts_S1x128x128x128_S128x128x128 (ix3 p ⟨j.val - 128, hlt⟩ d) = erow j d :=
      ((shapeCast_1abc_abc_apply v4 _ p ⟨j.val - 128, hlt⟩ d).trans (h4 ⟨j.val - 128, hlt⟩ d)).trans
        (congrArg (erow · d) (Fin.ext (by show j.val - 128 + 128 = j.val; omega)))
    exact congrArg₂ (· * ·) e e

/-- A vector of 128 entries cast to a column and laid along the 256 columns reads its entry `p` in row `p`. -/
theorem col_apply (y : FVec Ideal S128 .f32) (h1 : S128.ShapeCasts S128x1) (h2 : S128x1.Broadcasts S128x256)
    (p : Fin 128) (j : Fin 256) : broadcastTo S128x256 (shapeCast S128x1 y h1) h2 (ix2 p j) = y (ix1 p) :=
  (Cert.Lib.Columns.broadcastTo_a1_ab_apply _ h2 p j).trans (Cert.Lib.Columns.shapeCast_a_a1_apply y h1 p 0)

theorem mx_apply (y : FVec Ideal S128x256 .f32) (p : Fin 128) (j : Fin 256) :
    mx y (ix2 p j) = Cert.Spec.rowMax (fun j' => y (ix2 p j')) :=
  (col_apply _ _ _ p j).trans (rowMax_apply y _ p)

theorem ex_apply (y : FVec Ideal S128x256 .f32) (p : Fin 128) (j : Fin 256) :
    ex y (ix2 p j) = Cert.Spec.expo (fun j' => y (ix2 p j')) j := by
  show Ideal.exp (y (ix2 p j) - mx y (ix2 p j)) = _
  rw [mx_apply]
  rfl

theorem sm_apply (z : FVec Ideal S128x256 .f32) (p : Fin 128) (j : Fin 256) :
    sm z (ix2 p j) = ∑ j' : Fin 256, z (ix2 p j') :=
  (col_apply _ _ _ p j).trans (rowSum_apply z _ p)

/-- The softmax stage at `(p, j)`: the softmax of the row of square roots, at `j`. -/
theorem smx_apply (x : FVec Ideal S128x256 .f32) (p : Fin 128) (j : Fin 256) :
    smx x (ix2 p j) = Cert.Spec.softmax (fun j' => Ideal.sqrt (x (ix2 p j'))) j := by
  show Ideal.div (ex (sqrt x) (ix2 p j)) (sm (ex (sqrt x)) (ix2 p j)) = _
  rw [sm_apply, ex_apply]
  unfold Cert.Spec.softmax
  refine congrArg (Ideal.div _) (Finset.sum_congr rfl fun j' _ => ?_)
  exact ex_apply (sqrt x) p j'

/-- The linear stage at `(p, k)`. -/
theorem lin_apply (w : FVec Ideal S128x256 .f32) (v19 : Vec Ideal S1x256x128 .f32) (v25 : Vec Ideal S1x128x128 .f32)
    (v28 : Vec Ideal S128x128 .f32) (p k : Fin 128) :
    lin w v19 v25 v28 (ix2 p k)
      = ∑ d : Fin 128, (v25 (ix3 (0 : Fin 1) p d) + ∑ j : Fin 256, w (ix2 p j) * v19 (ix3 (0 : Fin 1) j d)) * v28 (ix2 d k) := by
  unfold lin
  refine (matmul2_apply _ _ p k).trans ?_
  refine Finset.sum_congr rfl fun d _ => ?_
  refine congrArg₂ (· * ·) ?_ (congrFun (shapeCast_self v28 _) _)
  refine congrArg₂ (· + ·) (shapeCast_1ab_ab_apply v25 _ p d) ?_
  refine (matmul1_apply _ _ p d).trans ?_
  exact Finset.sum_congr rfl fun j _ => congrArg (w (ix2 p j) * ·) (shapeCast_1ab_ab_apply v19 _ j d)

/-- The bias row laid down the 128 rows reads the bias's entry `k` in every row. -/
theorem pay3_apply (v31 : Vec Ideal S1x128 .f32) (p k : Fin 128) :
    k0_pay3 (F := Ideal) v31 (ix2 p k) = v31 (ix2 (0 : Fin 1) k) := by
  unfold k0_pay3
  refine (broadcastTo_1b_ab_apply _ _ p k).trans ?_
  exact congrFun (shapeCast_self v31 _) _

/-- The last payload at `(0, p, k)`: the sum of its two operands at `(p, k)`, clamped below at zero. -/
theorem pay1_apply (a b : FVec Ideal S128x128 .f32) (p k : Fin 128) :
    k0_pay1 (F := Ideal) a b (ix3 (0 : Fin 1) p k) = max (a (ix2 p k) + b (ix2 p k)) (Ideal.ofBits .f32 0x00000000#32) := by
  unfold k0_pay1
  refine (shapeCast_ab_1ab_apply _ _ 0 p k).trans ?_
  rfl

/-! ## The entry -/

/-- THE KERNEL'S ARITHMETIC AT ONE ENTRY: for the node in row `p` of the block, whose edge features the two loaded
    halves hold, and output feature `k`, the stored value is the specification's entry of the coordinate functions of
    the loaded blocks. -/
theorem payload_apply (v0 v4 : Vec Ideal S1x128x128x128 .f32) (v19 : Vec Ideal S1x256x128 .f32) (v25 : Vec Ideal S1x128x128 .f32)
    (v28 : Vec Ideal S128x128 .f32) (v31 : Vec Ideal S1x128 .f32) (p k : Fin 128) (erow : Fin 256 → Fin 128 → EReal)
    (h0 : ∀ (j d : Fin 128), v0 (ix4 (0 : Fin 1) p j d) = erow ⟨j.val, by omega⟩ d)
    (h4 : ∀ (j d : Fin 128), v4 (ix4 (0 : Fin 1) p j d) = erow ⟨j.val + 128, by omega⟩ d) :
    k0_pay1 (F := Ideal) (k0_pay2 (F := Ideal) v0 v4 v19 v25 v28) (k0_pay3 (F := Ideal) v31) (ix3 (0 : Fin 1) p k)
      = Cert.Spec.outEntry erow (fun j d => v19 (ix3 (0 : Fin 1) j d)) (fun d => v25 (ix3 (0 : Fin 1) p d))
          (fun d => v28 (ix2 d k)) (v31 (ix2 (0 : Fin 1) k)) := by
  have hn : (fun j' : Fin 256 => Ideal.sqrt (sqn v0 v4 (ix2 p j'))) = Cert.Spec.nrm erow :=
    funext fun j' => congrArg Ideal.sqrt (sqn_apply v0 v4 p erow h0 h4 j')
  have hw : ∀ j : Fin 256, smx (sqn v0 v4) (ix2 p j) = Cert.Spec.softmax (Cert.Spec.nrm erow) j := fun j =>
    (smx_apply (sqn v0 v4) p j).trans (congrArg (Cert.Spec.softmax · j) hn)
  rw [pay1_apply, pay3_apply, pay2_eq, lin_apply]
  unfold Cert.Spec.outEntry
  refine congrArg (max · _) (congrArg (· + _) (Finset.sum_congr rfl fun d _ => ?_))
  refine congrArg (· * _) (congrArg (_ + ·) (Finset.sum_congr rfl fun j _ => ?_))
  exact congrArg (· * _) (hw j)

end Cert.KernelIdeal.Pay

end
-- ==== Proof.KernelFinal.lean ====
/-
  The kernel program's run, read: after it the result buffer holds the shared normalisation applied to the
  pre-normalisation array `Spec.G` of the inputs.

  Point `t` of the 8 × 2 grid writes back block `(t / 2, t % 2)` of the region's `8 × 256 × 128` result; entry
  `(p, k)` of what it writes is the body's arithmetic on its four input blocks, which are batch `t / 2` of the
  edge and node arrays and the transposed weights and bias row; read through those blocks it is entry
  `(t / 2, 128·(t % 2) + p, k)` of `Spec.G`. The sixteen blocks tile the result, so the region leaves `Spec.G`
  whole, and the host operations after the region apply the normalisation to it.
-/
import proofs.«407254_j43164421325634_3_alg».proof.Proof.Gen.KernelIdeal.Frame
import proofs.«407254_j43164421325634_3_alg».proof.Proof.Spec
import proofs.«407254_j43164421325634_3_alg».proof.Proof.TailK
import proofs.«407254_j43164421325634_3_alg».proof.Proof.KernelPiece
import proofs.«407254_j43164421325634_3_alg».proof.Proof.KernelReads
import proofs.«407254_j43164421325634_3_alg».proof.Proof.KernelPayload
import Idealize.ShloMosaic.Lib.Pipeline.Value
import Idealize.ShloMosaic.Lib.ValueIdx

set_option maxRecDepth 16384

noncomputable section

namespace Cert.KernelIdeal.Final

open Cert.KernelIdeal Cert.KernelIdeal.Gen Idealize.ShloMosaic Idealize.ShloMosaic.TcCoe Idealize.ShloMosaic.Tactic Idealize.SL.Sem
open Idealize.ShloMosaic.ValueIdx
open Idealize.ShloMosaic.Pipeline (Dat Cfg Window)
open Cert.KernelIdeal.Reads

variable (m : (ℓ : Loc nD τ sig) → Buf (Elt Ideal) ℓ) (ρ : Dev nD → PrngReg)

/-- The pre-normalisation array of the launch contents of the four inputs it depends on. -/
abbrev Garr (c : Dev nD) : Vec Ideal S8x256x128 .f32 :=
  Cert.Spec.G (m ((c : Thread nD τ).loc main_arg0)) (m ((c : Thread nD τ).loc main_arg1))
    (m ((c : Thread nD τ).loc main_arg2)) (m ((c : Thread nD τ).loc main_arg3))

/-- WHAT POINT `t` WRITES BACK is block `t` of the pre-normalisation array. -/
theorem flushed_eq (c : Dev nD) (t : Fin cfg0.N) :
    (dats m 0 c).flushed 4 t = ((cfg0.win 4).blk t).view.read (Elt Ideal) (Garr m c) := by
  have hN : t.val < 16 := by have h := t.isLt; have e : cfg0.N = 16 := N_0; omega
  obtain ⟨-, -, -, -, -, -, -, -, -, -, -, e0, e1, e2, ec⟩ := idx_facts t
  show (cfg0.win 4).cut (grid0.coords t) ((dats m 0 c).after 4 t) = _
  rw [after0_4]
  unfold outsAt0
  rw [Piece.out_eq]
  funext y
  obtain ⟨u, p, k, rfl⟩ : ∃ (u : Fin 1) (p k : Fin 128), y = ix3 u p k := ⟨y 0, y 1, y 2, eq_ix3 y⟩
  obtain rfl : u = 0 := Subsingleton.elim _ _
  rw [View.read_apply]
  let bi : Fin 8 := ⟨t.val / 2, by omega⟩
  let r : Fin 256 := ⟨128 * (t.val % 2) + p.val, by omega⟩
  have hbi : bi.val = t.val / 2 := rfl
  have hr : r.val = 128 * (t.val % 2) + p.val := rfl
  have hemb : ((cfg0.win 4).blk t).view.emb (ix3 (0 : Fin 1) p k) = ix3 bi r k := by
    funext a
    apply Fin.ext
    match a with
    | ⟨0, _⟩ => show win0_4.index t (0 : Fin 3) * 1 + 1 * (0 : ℕ) = bi.val; rw [e0, hbi]; omega
    | ⟨1, _⟩ => show win0_4.index t (1 : Fin 3) * 128 + 1 * p.val = r.val; rw [e1, hr]; omega
    | ⟨2, _⟩ => show win0_4.index t (2 : Fin 3) * 128 + 1 * k.val = k.val; rw [e2]; omega
  rw [hemb]
  show k0_pay1 (F := Ideal) (k0_pay2 (F := Ideal) (Piece.loadLo (eblk m c t)) (Piece.loadHi (eblk m c t)) (hblk m c t)
      (Piece.loadOwn (grid0.coords t) (hblk m c t)) (wblk m c t)) (k0_pay3 (F := Ideal) (bblk m c t)) (ix3 (0 : Fin 1) p k)
    = Cert.Spec.Gc (m ((c : Thread nD τ).loc main_arg0)) (m ((c : Thread nD τ).loc main_arg1))
        (m ((c : Thread nD τ).loc main_arg2)) (m ((c : Thread nD τ).loc main_arg3)) bi r k
  refine (Cert.KernelIdeal.Pay.payload_apply (Piece.loadLo (eblk m c t)) (Piece.loadHi (eblk m c t)) (hblk m c t)
    (Piece.loadOwn (grid0.coords t) (hblk m c t)) (wblk m c t) (bblk m c t) p k
    (fun j d => (m ((c : Thread nD τ).loc main_arg1) : Vec Ideal S8x256x256x128 .f32) (ix4 bi r j d)) ?_ ?_).trans ?_
  · intro j d
    rw [Piece.loadLo_apply, eblk_apply m c t p _ d bi r hbi hr, earr_eq]
  · intro j d
    rw [Piece.loadHi_apply, eblk_apply m c t p _ d bi r hbi hr, earr_eq]
  · unfold Cert.Spec.Gc
    have h1 : (fun (j : Fin 256) (d : Fin 128) => hblk m c t (ix3 (0 : Fin 1) j d))
        = fun j d => (m ((c : Thread nD τ).loc main_arg0) : Vec Ideal S8x256x128 .f32) (ix3 bi j d) :=
      funext fun j => funext fun d => by rw [hblk_apply m c t j d bi hbi, harr_eq]
    have h2 : (fun (d : Fin 128) => Piece.loadOwn (grid0.coords t) (hblk m c t) (ix3 (0 : Fin 1) p d))
        = fun d => (m ((c : Thread nD τ).loc main_arg0) : Vec Ideal S8x256x128 .f32) (ix3 bi r d) :=
      funext fun d => by
        rw [Piece.loadOwn_apply (grid0.coords t) (hblk m c t) p d r (by rw [ec, hr]), hblk_apply m c t r d bi hbi, harr_eq]
    have h3 : (fun (d : Fin 128) => wblk m c t (ix2 d k))
        = fun d => (m ((c : Thread nD τ).loc main_arg2) : Vec Ideal S128x128 .f32) (ix2 k d) :=
      funext fun d => by rw [wblk_apply, warr_apply]
    have h4 : bblk m c t (ix2 (0 : Fin 1) k) = (m ((c : Thread nD τ).loc main_arg3) : Vec Ideal S128 .f32) (ix1 k) := by
      rw [bblk_apply, barr_apply]
    rw [h1, h2, h3, h4]

/-- An index of the result array is in point `t`'s block iff each coordinate is in the block's range on its axis. -/
theorem mem_blk (t : Fin cfg0.N) (i : S8x256x128.Idx) :
    i ∈ ((cfg0.win 4).blk t).view.set ↔ ∀ a : Fin 3, win0_4.index t a * S1x128x128.size a ≤ (i a).val ∧ (i a).val < win0_4.index t a * S1x128x128.size a + S1x128x128.size a := by
  show i ∈ ((View.whole main_v2).slice (win0_4.rect t)).set ↔ _
  rw [View.set_slice_whole, Rect.mem_set_unit]
  exact Iff.rfl

/-- Every index of the result array is in the block of the point `2·b + r / 128`. -/
theorem cover (i : S8x256x128.Idx) :
    ∃ t : Fin cfg0.N, (cfg0.win 4).flush t = true ∧ i ∈ ((cfg0.win 4).blk t).view.set := by
  have h0 : (i 0).val < 8 := (i 0).isLt
  have h1 : (i 1).val < 256 := (i 1).isLt
  have h2 : (i 2).val < 128 := (i 2).isLt
  let t : Fin cfg0.N := ⟨2 * (i 0).val + (i 1).val / 128, by rw [show cfg0.N = 16 from N_0]; omega⟩
  have ht : t.val = 2 * (i 0).val + (i 1).val / 128 := rfl
  obtain ⟨-, -, -, -, -, -, -, -, -, -, -, e0, e1, e2, -⟩ := idx_facts t
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; rw [e0, ht]; omega
  | ⟨1, _⟩ => show win0_4.index t (1 : Fin 3) * 128 ≤ (i 1).val ∧ (i 1).val < win0_4.index t (1 : Fin 3) * 128 + 128; rw [e1, ht]; omega
  | ⟨2, _⟩ => show win0_4.index t (2 : Fin 3) * 128 ≤ (i 2).val ∧ (i 2).val < win0_4.index t (2 : Fin 3) * 128 + 128; rw [e2]; omega

/-- THE REGION'S RESULT after the run: the pre-normalisation array. -/
theorem final (c : Dev nD) : (dats m 0 c).arrAt 4 cfg0.N = Garr m c :=
  (dats m 0 c).arrAt_eq_of_cover 4 (Garr m c) (fun t _ => flushed_eq m c t) cover

/-- The host operations after the region leave the result buffer at the normalisation of the region's result. -/
theorem tail_read (c : Dev nD) :
    Pipeline.afterTail₀ cfgs (dats m) 0 (V0 m) [hostOps1, hostOps1_1, hostOps1_2] c main_v24
      = Cert.KernelIdeal.Tail.bn (F := Ideal) (Garr m c) (m ((c : Thread nD τ).loc main_arg0)) (m ((c : Thread nD τ).loc main_arg4))
          (m ((c : Thread nD τ).loc main_arg5)) := by
  unfold Pipeline.afterTail₀
  rw [Cert.KernelIdeal.Tail.tail_eq]
  have a2 := Pipeline.withArrays_arr spec0 launch0.win.arr_inj c (V0 m c) (fun w => (dats m 0 c).arrAt w cfg0.N) 4
  have a0 := Pipeline.withArrays_arr spec0 launch0.win.arr_inj c (V0 m c) (fun w => (dats m 0 c).arrAt w cfg0.N) 1
  have a4 := Pipeline.withArrays_of_ne spec0 c (V0 m c) (fun w => (dats m 0 c).arrAt w cfg0.N) main_arg4 (by exact (by decide : ∀ w, Pipeline.arrRef spec0 w ≠ main_arg4))
  have a5 := Pipeline.withArrays_of_ne spec0 c (V0 m c) (fun w => (dats m 0 c).arrAt w cfg0.N) main_arg5 (by exact (by decide : ∀ w, Pipeline.arrRef spec0 w ≠ main_arg5))
  have e2 := a2.trans (final m c)
  have e0 := a0.trans (((dats m 0 c).arrAt_in 1 rfl _).trans ((A_eq m c 1).trans (V_main_arg0 m c)))
  have e4 := a4.trans (V_main_arg4 m c)
  have e5 := a5.trans (V_main_arg5 m c)
  exact congr (congr (congr (congrArg (Cert.KernelIdeal.Tail.bn (F := Ideal)) e2) e0) e4) e5

/-- Every weakly fair execution of the kernel program terminates with the result buffer at the normalisation of the
    pre-normalisation array, and the six inputs unchanged. -/
theorem run : θ_run defs (onTc (τ := τ) (main (F := Ideal))) ⟨m, fun _ => 0, ρ⟩ fun r => ∀ c : Dev nD,
      r.2.mem ((c.tc : Thread nD τ).loc main_v24)
        = Cert.KernelIdeal.Tail.bn (F := Ideal) (Garr m c) (m ((c : Thread nD τ).loc main_arg0))
            (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v24 (Pipeline.mem_restRefs_of main_v24 (by decide) (by decide))).trans (tail_read m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.Final

end
-- ==== Proof.RefRun.lean ====
/-
  The reference program's entry function as ONE straight line of host operations, the module-local functions it
  calls unfolded at their calls, and its run read back: every weakly fair execution terminates with each buffer
  at the fold of the operations' results over the launch contents.

  The line is cut in two at the value before the batch normalisation: `opsHead` ends at the clamp below at zero
  (the edge norms, the softmax over the neighbours, the weighted average, the linear layer, the clamp), `opsTail`
  is the normalisation over the 2048 rows, the scale and shift, and the residual sum.
-/
import proofs.«407254_j43164421325634_3_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The first 27 operations: the norm of every edge feature vector (4), the softmax, the two contractions and the
    bias (20), the clamp below at zero (3). The last writes `main_v18`. -/
abbrev opsHead : List (HloOp τ sig (Elt F)) :=
  [ StableHlo.TRef.binary (.of main_arg1) (.of main_arg1) main_call0.v0 mulf,
    StableHlo.TRef.nullary main_call0.cst (constant S_ .f32 0x00000000#32),
    StableHlo.TRef.binary main_call0.v0 main_call0.cst main_call0.v1 (fun x v => Host.reduceAdd x v reducesTo_S8x256x256x128_S8x256x256_d3 h_S_),
    StableHlo.TRef.unary main_call0.v1 main_call0.v2 Host.sqrt,
    StableHlo.nullary main_cst (constant S_ .f32 0xFF800000#32),
    StableHlo.binary main_v0 main_cst main_v1 ((fun x v => Host.reduce FloatOps.maximumf x v reducesTo_S8x256x256_S8x256_d2 h_S_) : (⟨S8x256x256, .f32⟩ : BufTy).Contents (Elt F) → (⟨S_, .f32⟩ : BufTy).Contents (Elt F) → (⟨S8x256, .f32⟩ : BufTy).Contents (Elt F)),
    StableHlo.nullary main_cst_0 (constant S_ .f32 0xFF800000#32),
    StableHlo.unary main_cst_0 main_v2 (broadcastInDim S8x256 ![] bcast_S_S8x256 : (⟨S_, .f32⟩ : BufTy).Contents (Elt F) → (⟨S8x256, .f32⟩ : BufTy).Contents (Elt F)),
    StableHlo.binary main_v2 main_v1 main_v3 (maximumf : (⟨S8x256, .f32⟩ : BufTy).Contents (Elt F) → (⟨S8x256, .f32⟩ : BufTy).Contents (Elt F) → (⟨S8x256, .f32⟩ : BufTy).Contents (Elt F)),
    StableHlo.unary main_v3 main_v4 (broadcastInDim S8x256x1 ![0, 1] bcast_S8x256_S8x256x1_0_1 : (⟨S8x256, .f32⟩ : BufTy).Contents (Elt F) → (⟨S8x256x1, .f32⟩ : BufTy).Contents (Elt F)),
    StableHlo.unary main_v4 main_v5 (broadcastInDim S8x256x256 ![0, 1, 2] bcast_S8x256x1_S8x256x256_0_1_2 : (⟨S8x256x1, .f32⟩ : BufTy).Contents (Elt F) → (⟨S8x256x256, .f32⟩ : BufTy).Contents (Elt F)),
    StableHlo.binary main_v0 main_v5 main_v6 (subf : (⟨S8x256x256, .f32⟩ : BufTy).Contents (Elt F) → (⟨S8x256x256, .f32⟩ : BufTy).Contents (Elt F) → (⟨S8x256x256, .f32⟩ : BufTy).Contents (Elt F)),
    StableHlo.unary main_v6 main_v7 (Host.exp : (⟨S8x256x256, .f32⟩ : BufTy).Contents (Elt F) → (⟨S8x256x256, .f32⟩ : BufTy).Contents (Elt F)),
    StableHlo.nullary main_cst_1 (constant S_ .f32 0x00000000#32),
    StableHlo.binary main_v7 main_cst_1 main_v8 ((fun x v => Host.reduceAdd x v reducesTo_S8x256x256_S8x256_d2 h_S_) : (⟨S8x256x256, .f32⟩ : BufTy).Contents (Elt F) → (⟨S_, .f32⟩ : BufTy).Contents (Elt F) → (⟨S8x256, .f32⟩ : BufTy).Contents (Elt F)),
    StableHlo.unary main_v8 main_v9 (broadcastInDim S8x256x1 ![0, 1] bcast_S8x256_S8x256x1_0_1 : (⟨S8x256, .f32⟩ : BufTy).Contents (Elt F) → (⟨S8x256x1, .f32⟩ : BufTy).Contents (Elt F)),
    StableHlo.unary main_v9 main_v10 (broadcastInDim S8x256x256 ![0, 1, 2] bcast_S8x256x1_S8x256x256_0_1_2 : (⟨S8x256x1, .f32⟩ : BufTy).Contents (Elt F) → (⟨S8x256x256, .f32⟩ : BufTy).Contents (Elt F)),
    StableHlo.binary main_v7 main_v10 main_v11 (Host.divf : (⟨S8x256x256, .f32⟩ : BufTy).Contents (Elt F) → (⟨S8x256x256, .f32⟩ : BufTy).Contents (Elt F) → (⟨S8x256x256, .f32⟩ : BufTy).Contents (Elt F)),
    StableHlo.binary main_v11 main_arg0 main_v12 ((fun l r => Host.dotGeneral dot_S8x256x256_S8x256x128_S8x256x128_2_1_1_2_0_0 none l r) : (⟨S8x256x256, .f32⟩ : BufTy).Contents (Elt F) → (⟨S8x256x128, .f32⟩ : BufTy).Contents (Elt F) → (⟨S8x256x128, .f32⟩ : BufTy).Contents (Elt F)),
    StableHlo.binary main_arg0 main_v12 main_v13 (addf : (⟨S8x256x128, .f32⟩ : BufTy).Contents (Elt F) → (⟨S8x256x128, .f32⟩ : BufTy).Contents (Elt F) → (⟨S8x256x128, .f32⟩ : BufTy).Contents (Elt F)),
    StableHlo.binary main_v13 main_arg2 main_v14 ((fun l r => Host.dotGeneral dot_S8x256x128_S128x128_S8x256x128_2_1_01_0_n_n none l r) : (⟨S8x256x128, .f32⟩ : BufTy).Contents (Elt F) → (⟨S128x128, .f32⟩ : BufTy).Contents (Elt F) → (⟨S8x256x128, .f32⟩ : BufTy).Contents (Elt F)),
    StableHlo.unary main_arg3 main_v15 (broadcastInDim S1x1x128 ![2] bcast_S128_S1x1x128_2 : (⟨S128, .f32⟩ : BufTy).Contents (Elt F) → (⟨S1x1x128, .f32⟩ : BufTy).Contents (Elt F)),
    StableHlo.unary main_v15 main_v16 (broadcastInDim S8x256x128 ![0, 1, 2] bcast_S1x1x128_S8x256x128_0_1_2 : (⟨S1x1x128, .f32⟩ : BufTy).Contents (Elt F) → (⟨S8x256x128, .f32⟩ : BufTy).Contents (Elt F)),
    StableHlo.binary main_v14 main_v16 main_v17 (addf : (⟨S8x256x128, .f32⟩ : BufTy).Contents (Elt F) → (⟨S8x256x128, .f32⟩ : BufTy).Contents (Elt F) → (⟨S8x256x128, .f32⟩ : BufTy).Contents (Elt F)),
    StableHlo.TRef.nullary main_call1.cst (constant S_ .f32 0x00000000#32),
    StableHlo.TRef.unary main_call1.cst main_call1.v0 (broadcastInDim S8x256x128 ![] bcast_S_S8x256x128),
    StableHlo.TRef.binary (.of main_v17) main_call1.v0 main_call1.v1 maximumf ]

/-- The remaining 47 operations: the rows flattened and their mean (7), the variance (19, and the 3 of the
    selection of its value), the normalisation, scale, shift and the residual sum (18). -/
abbrev opsTail : List (HloOp τ sig (Elt F)) :=
  [ StableHlo.reshape main_v18 main_v19 rfl shapeCasts_S8x256x128_S2048x128,
    StableHlo.nullary main_cst_2 (constant S_ .f32 0x00000000#32),
    StableHlo.binary main_v19 main_cst_2 main_v20 ((fun x v => Host.reduceAdd x v reducesTo_S2048x128_S128_d0 h_S_) : (⟨S2048x128, .f32⟩ : BufTy).Contents (Elt F) → (⟨S_, .f32⟩ : BufTy).Contents (Elt F) → (⟨S128, .f32⟩ : BufTy).Contents (Elt F)),
    StableHlo.nullary main_cst_3 (constant S_ .f32 0x45000000#32),
    StableHlo.unary main_cst_3 main_v21 (broadcastInDim S128 ![] bcast_S_S128 : (⟨S_, .f32⟩ : BufTy).Contents (Elt F) → (⟨S128, .f32⟩ : BufTy).Contents (Elt F)),
    StableHlo.binary main_v20 main_v21 main_v22 (Host.divf : (⟨S128, .f32⟩ : BufTy).Contents (Elt F) → (⟨S128, .f32⟩ : BufTy).Contents (Elt F) → (⟨S128, .f32⟩ : BufTy).Contents (Elt F)),
    StableHlo.nullary main_c (constantI S_ 32 0#32),
    StableHlo.TRef.nullary main_call2.cst (constant S_ .f32 0x00000000#32),
    StableHlo.TRef.binary (.of main_v19) main_call2.cst main_call2.v0 (fun x v => Host.reduceAdd x v reducesTo_S2048x128_S128_d0 h_S_),
    StableHlo.TRef.unary main_call2.v0 main_call2.v1 (broadcastInDim S1x128 ![1] bcast_S128_S1x128_1),
    StableHlo.TRef.nullary main_call2.cst_0 (constant S_ .f32 0x45000000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S2048x128 ![0, 1] bcast_S1x128_S2048x128_0_1),
    StableHlo.TRef.binary (.of main_v19) main_call2.v4 main_call2.v5 subf,
    StableHlo.TRef.binary main_call2.v5 main_call2.v5 main_call2.v6 mulf,
    StableHlo.TRef.unary (.of main_c) main_call2.v7 (sitofp .f32),
    StableHlo.TRef.nullary main_call2.cst_1 (constant S_ .f32 0x45000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S2048x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v22 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S2048x128 ![0, 1] bcast_S1x128_S2048x128_0_1 : (⟨S1x128, .f32⟩ : BufTy).Contents (Elt F) → (⟨S2048x128, .f32⟩ : BufTy).Contents (Elt F)),
    StableHlo.binary main_v19 main_v25 main_v26 (subf : (⟨S2048x128, .f32⟩ : BufTy).Contents (Elt F) → (⟨S2048x128, .f32⟩ : BufTy).Contents (Elt F) → (⟨S2048x128, .f32⟩ : BufTy).Contents (Elt F)),
    StableHlo.nullary main_cst_4 (constant S_ .f32 0x3727C5AC#32),
    StableHlo.unary main_cst_4 main_v27 (broadcastInDim S128 ![] bcast_S_S128 : (⟨S_, .f32⟩ : BufTy).Contents (Elt F) → (⟨S128, .f32⟩ : BufTy).Contents (Elt F)),
    StableHlo.binary main_v23 main_v27 main_v28 (addf : (⟨S128, .f32⟩ : BufTy).Contents (Elt F) → (⟨S128, .f32⟩ : BufTy).Contents (Elt F) → (⟨S128, .f32⟩ : BufTy).Contents (Elt F)),
    StableHlo.unary main_v28 main_v29 (Host.rsqrt : (⟨S128, .f32⟩ : BufTy).Contents (Elt F) → (⟨S128, .f32⟩ : BufTy).Contents (Elt F)),
    StableHlo.unary main_v29 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S2048x128 ![0, 1] bcast_S1x128_S2048x128_0_1 : (⟨S1x128, .f32⟩ : BufTy).Contents (Elt F) → (⟨S2048x128, .f32⟩ : BufTy).Contents (Elt F)),
    StableHlo.binary main_v26 main_v31 main_v32 (mulf : (⟨S2048x128, .f32⟩ : BufTy).Contents (Elt F) → (⟨S2048x128, .f32⟩ : BufTy).Contents (Elt F) → (⟨S2048x128, .f32⟩ : BufTy).Contents (Elt F)),
    StableHlo.unary main_arg4 main_v33 (broadcastInDim S1x128 ![1] bcast_S128_S1x128_1 : (⟨S128, .f32⟩ : BufTy).Contents (Elt F) → (⟨S1x128, .f32⟩ : BufTy).Contents (Elt F)),
    StableHlo.unary main_v33 main_v34 (broadcastInDim S2048x128 ![0, 1] bcast_S1x128_S2048x128_0_1 : (⟨S1x128, .f32⟩ : BufTy).Contents (Elt F) → (⟨S2048x128, .f32⟩ : BufTy).Contents (Elt F)),
    StableHlo.binary main_v32 main_v34 main_v35 (mulf : (⟨S2048x128, .f32⟩ : BufTy).Contents (Elt F) → (⟨S2048x128, .f32⟩ : BufTy).Contents (Elt F) → (⟨S2048x128, .f32⟩ : BufTy).Contents (Elt F)),
    StableHlo.unary main_arg5 main_v36 (broadcastInDim S1x128 ![1] bcast_S128_S1x128_1 : (⟨S128, .f32⟩ : BufTy).Contents (Elt F) → (⟨S1x128, .f32⟩ : BufTy).Contents (Elt F)),
    StableHlo.unary main_v36 main_v37 (broadcastInDim S2048x128 ![0, 1] bcast_S1x128_S2048x128_0_1 : (⟨S1x128, .f32⟩ : BufTy).Contents (Elt F) → (⟨S2048x128, .f32⟩ : BufTy).Contents (Elt F)),
    StableHlo.binary main_v35 main_v37 main_v38 (addf : (⟨S2048x128, .f32⟩ : BufTy).Contents (Elt F) → (⟨S2048x128, .f32⟩ : BufTy).Contents (Elt F) → (⟨S2048x128, .f32⟩ : BufTy).Contents (Elt F)),
    StableHlo.reshape main_v38 main_v39 rfl shapeCasts_S2048x128_S8x256x128,
    StableHlo.binary main_v39 main_arg0 main_v40 (addf : (⟨S8x256x128, .f32⟩ : BufTy).Contents (Elt F) → (⟨S8x256x128, .f32⟩ : BufTy).Contents (Elt F) → (⟨S8x256x128, .f32⟩ : BufTy).Contents (Elt F)) ]

/-- The fold over a concatenation is the fold over the second line from the fold over the first. -/
theorem after_append' (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem after_append (V : Valuation τ sig (Elt F)) :
    after (opsHead ++ opsTail : List (HloOp τ sig (Elt F))) V = after opsTail (after opsHead V) := after_append' _ _ V

-- seventy-four binds re-associated: the rewrite under the chain recurses once per statement
set_option maxRecDepth 4096 in
/-- The entry function is that straight line: the functions' definitions unfolded at their calls and the records
    at their fields, both sides are one chain of steps once sequencing is reassociated. -/
theorem main_eq (c : Dev nD) : main (F := F) c = seq (opsHead ++ opsTail) := rfl

theorem scopedRefs_eq : (Finset.univ.filter fun b : Ref sig .tc => b.isScoped) = ∅ := by decide
theorem scopedSems_eq : (Finset.univ.filter fun sm : SemLoc sig => sm.isScoped .tc) = ∅ := by decide

theorem opsHead_sub : (opsHead : List (HloOp τ sig (Elt F))).Forall fun op => op.bufs ⊆ tcRefs τ sig :=
  ⟨binary_bufs_sub .., nullary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub ..⟩

theorem opsTail_sub : (opsTail : List (HloOp τ sig (Elt F))).Forall fun op => op.bufs ⊆ tcRefs τ sig :=
  ⟨reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., reshape_bufs_sub .., binary_bufs_sub ..⟩

theorem ops_sub : (opsHead ++ opsTail : List (HloOp τ sig (Elt F))).Forall fun op => op.bufs ⊆ tcRefs τ sig :=
  List.forall_iff_forall_mem.mpr fun op h => (List.mem_append.mp h).elim
    (List.forall_iff_forall_mem.mp opsHead_sub op) (List.forall_iff_forall_mem.mp opsTail_sub op)

theorem opsHead_fresh : ∀ op ∈ (opsHead : List (HloOp τ sig (Elt F))), op.fresh = ∅ := by
  intro _ h; (repeat (cases h with | head => rfl | tail _ h => ?_)); exact nomatch h

theorem opsTail_fresh : ∀ op ∈ (opsTail : List (HloOp τ sig (Elt F))), op.fresh = ∅ := by
  intro _ h; (repeat (cases h with | head => rfl | tail _ h => ?_)); exact nomatch h

/-- On every device, for any float values, from any memory with zero counters: every weakly fair execution of the
    entry function terminates with each buffer at the fold of the operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after (opsHead ++ opsTail) (launchContents m c) (Proc.devRef .tc b) :=
  run_seq scopedRefs_eq scopedSems_eq defs main (fun _ => opsHead ++ opsTail) main_eq (fun _ => ops_sub) m ρ
    (fun _ op h => (List.mem_append.mp h).elim (opsHead_fresh op) (opsTail_fresh op))

/-! ## The arguments are written by no operation -/

theorem head_arg0 (V : Valuation τ sig (Elt F)) :
    after (opsHead (F := F)) V (Proc.devRef .tc main_arg0) = V (Proc.devRef .tc main_arg0) :=
  after_of_forall_not_mem (b := Proc.devRef .tc main_arg0) _ _ (List.forall_iff_forall_mem.mp (by
    simp only [List.Forall, nullary_writes, unary_writes, binary_writes, ternary_writes, reshape_writes, Finset.mem_singleton]
    repeat' apply And.intro
    all_goals exact devRef_ne_of_ne (by decide)))
theorem head_arg1 (V : Valuation τ sig (Elt F)) :
    after (opsHead (F := F)) V (Proc.devRef .tc main_arg1) = V (Proc.devRef .tc main_arg1) :=
  after_of_forall_not_mem (b := Proc.devRef .tc main_arg1) _ _ (List.forall_iff_forall_mem.mp (by
    simp only [List.Forall, nullary_writes, unary_writes, binary_writes, ternary_writes, reshape_writes, Finset.mem_singleton]
    repeat' apply And.intro
    all_goals exact devRef_ne_of_ne (by decide)))
theorem head_arg2 (V : Valuation τ sig (Elt F)) :
    after (opsHead (F := F)) V (Proc.devRef .tc main_arg2) = V (Proc.devRef .tc main_arg2) :=
  after_of_forall_not_mem (b := Proc.devRef .tc main_arg2) _ _ (List.forall_iff_forall_mem.mp (by
    simp only [List.Forall, nullary_writes, unary_writes, binary_writes, ternary_writes, reshape_writes, Finset.mem_singleton]
    repeat' apply And.intro
    all_goals exact devRef_ne_of_ne (by decide)))
theorem head_arg3 (V : Valuation τ sig (Elt F)) :
    after (opsHead (F := F)) V (Proc.devRef .tc main_arg3) = V (Proc.devRef .tc main_arg3) :=
  after_of_forall_not_mem (b := Proc.devRef .tc main_arg3) _ _ (List.forall_iff_forall_mem.mp (by
    simp only [List.Forall, nullary_writes, unary_writes, binary_writes, ternary_writes, reshape_writes, Finset.mem_singleton]
    repeat' apply And.intro
    all_goals exact devRef_ne_of_ne (by decide)))
theorem head_arg4 (V : Valuation τ sig (Elt F)) :
    after (opsHead (F := F)) V (Proc.devRef .tc main_arg4) = V (Proc.devRef .tc main_arg4) :=
  after_of_forall_not_mem (b := Proc.devRef .tc main_arg4) _ _ (List.forall_iff_forall_mem.mp (by
    simp only [List.Forall, nullary_writes, unary_writes, binary_writes, ternary_writes, reshape_writes, Finset.mem_singleton]
    repeat' apply And.intro
    all_goals exact devRef_ne_of_ne (by decide)))
theorem head_arg5 (V : Valuation τ sig (Elt F)) :
    after (opsHead (F := F)) V (Proc.devRef .tc main_arg5) = V (Proc.devRef .tc main_arg5) :=
  after_of_forall_not_mem (b := Proc.devRef .tc main_arg5) _ _ (List.forall_iff_forall_mem.mp (by
    simp only [List.Forall, nullary_writes, unary_writes, binary_writes, ternary_writes, reshape_writes, Finset.mem_singleton]
    repeat' apply And.intro
    all_goals exact devRef_ne_of_ne (by decide)))

theorem tail_arg0 (V : Valuation τ sig (Elt F)) :
    after (opsTail (F := F)) V (Proc.devRef .tc main_arg0) = V (Proc.devRef .tc main_arg0) :=
  after_of_forall_not_mem (b := Proc.devRef .tc main_arg0) _ _ (List.forall_iff_forall_mem.mp (by
    simp only [List.Forall, nullary_writes, unary_writes, binary_writes, ternary_writes, reshape_writes, Finset.mem_singleton]
    repeat' apply And.intro
    all_goals exact devRef_ne_of_ne (by decide)))
theorem tail_arg1 (V : Valuation τ sig (Elt F)) :
    after (opsTail (F := F)) V (Proc.devRef .tc main_arg1) = V (Proc.devRef .tc main_arg1) :=
  after_of_forall_not_mem (b := Proc.devRef .tc main_arg1) _ _ (List.forall_iff_forall_mem.mp (by
    simp only [List.Forall, nullary_writes, unary_writes, binary_writes, ternary_writes, reshape_writes, Finset.mem_singleton]
    repeat' apply And.intro
    all_goals exact devRef_ne_of_ne (by decide)))
theorem tail_arg2 (V : Valuation τ sig (Elt F)) :
    after (opsTail (F := F)) V (Proc.devRef .tc main_arg2) = V (Proc.devRef .tc main_arg2) :=
  after_of_forall_not_mem (b := Proc.devRef .tc main_arg2) _ _ (List.forall_iff_forall_mem.mp (by
    simp only [List.Forall, nullary_writes, unary_writes, binary_writes, ternary_writes, reshape_writes, Finset.mem_singleton]
    repeat' apply And.intro
    all_goals exact devRef_ne_of_ne (by decide)))
theorem tail_arg3 (V : Valuation τ sig (Elt F)) :
    after (opsTail (F := F)) V (Proc.devRef .tc main_arg3) = V (Proc.devRef .tc main_arg3) :=
  after_of_forall_not_mem (b := Proc.devRef .tc main_arg3) _ _ (List.forall_iff_forall_mem.mp (by
    simp only [List.Forall, nullary_writes, unary_writes, binary_writes, ternary_writes, reshape_writes, Finset.mem_singleton]
    repeat' apply And.intro
    all_goals exact devRef_ne_of_ne (by decide)))
theorem tail_arg4 (V : Valuation τ sig (Elt F)) :
    after (opsTail (F := F)) V (Proc.devRef .tc main_arg4) = V (Proc.devRef .tc main_arg4) :=
  after_of_forall_not_mem (b := Proc.devRef .tc main_arg4) _ _ (List.forall_iff_forall_mem.mp (by
    simp only [List.Forall, nullary_writes, unary_writes, binary_writes, ternary_writes, reshape_writes, Finset.mem_singleton]
    repeat' apply And.intro
    all_goals exact devRef_ne_of_ne (by decide)))
theorem tail_arg5 (V : Valuation τ sig (Elt F)) :
    after (opsTail (F := F)) V (Proc.devRef .tc main_arg5) = V (Proc.devRef .tc main_arg5) :=
  after_of_forall_not_mem (b := Proc.devRef .tc main_arg5) _ _ (List.forall_iff_forall_mem.mp (by
    simp only [List.Forall, nullary_writes, unary_writes, binary_writes, ternary_writes, reshape_writes, Finset.mem_singleton]
    repeat' apply And.intro
    all_goals exact devRef_ne_of_ne (by decide)))

end Cert.ReferenceIdeal.Run

end
-- ==== Proof.RefHead.lean ====
/-
  The value the reference program holds before the batch normalisation, as ONE term of its inputs.

  The reference computes, for the edge features `e`, the node features `h`, the weights `W` and the bias `b`:
  the Euclidean norm of every edge feature vector; the softmax of the norms over the neighbours (row maximum
  subtracted, exponential, divided by the row sum); the average of the neighbours' features with these weights,
  added to the node's own; the linear layer; the clamp below at zero. `refPre` composes the operations in the
  program's order, and `head_eq` reads the fold of the first 27 operations at their last result as that term.
-/
import proofs.«407254_j43164421325634_3_alg».proof.Proof.RefRun

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The norm of every edge feature vector: the square root of the sum of squares over the feature axis. -/
def refNorm (e : FVec F S8x256x256x128 .f32) : FVec F S8x256x256 .f32 :=
  Host.sqrt (Host.reduceAdd (mulf e e) (constant S_ .f32 0x00000000#32) reducesTo_S8x256x256x128_S8x256x256_d3 h_S_)

/-- The maximum of every row of weights, taken once more against the initial value. -/
def refRowMax (n : FVec F S8x256x256 .f32) : FVec F S8x256 .f32 :=
  maximumf (broadcastInDim S8x256 ![] bcast_S_S8x256 (constant S_ .f32 0xFF800000#32))
    (Host.reduce FloatOps.maximumf n (constant S_ .f32 0xFF800000#32) reducesTo_S8x256x256_S8x256_d2 h_S_)

/-- The exponential of every weight less its row's maximum. -/
def refExp (n : FVec F S8x256x256 .f32) : FVec F S8x256x256 .f32 :=
  Host.exp (subf n (broadcastInDim S8x256x256 ![0, 1, 2] bcast_S8x256x1_S8x256x256_0_1_2
    (broadcastInDim S8x256x1 ![0, 1] bcast_S8x256_S8x256x1_0_1 (refRowMax n))))

/-- The softmax of every row: the exponentials divided by their row's sum. -/
def refSoftmax (n : FVec F S8x256x256 .f32) : FVec F S8x256x256 .f32 :=
  Host.divf (refExp n) (broadcastInDim S8x256x256 ![0, 1, 2] bcast_S8x256x1_S8x256x256_0_1_2
    (broadcastInDim S8x256x1 ![0, 1] bcast_S8x256_S8x256x1_0_1
      (Host.reduceAdd (refExp n) (constant S_ .f32 0x00000000#32) reducesTo_S8x256x256_S8x256_d2 h_S_)))

/-- The value before the batch normalisation. -/
def refPre (h : FVec F S8x256x128 .f32) (e : FVec F S8x256x256x128 .f32) (W : FVec F S128x128 .f32) (b : FVec F S128 .f32) :
    FVec F S8x256x128 .f32 :=
  maximumf
    (addf
      (Host.dotGeneral dot_S8x256x128_S128x128_S8x256x128_2_1_01_0_n_n none
        (addf h (Host.dotGeneral dot_S8x256x256_S8x256x128_S8x256x128_2_1_1_2_0_0 none (refSoftmax (refNorm e)) h)) W)
      (broadcastInDim S8x256x128 ![0, 1, 2] bcast_S1x1x128_S8x256x128_0_1_2 (broadcastInDim S1x1x128 ![2] bcast_S128_S1x1x128_2 b)))
    (broadcastInDim S8x256x128 ![] bcast_S_S8x256x128 (constant S_ .f32 0x00000000#32))

attribute [local irreducible] Host.reduce Host.reduceAdd in
set_option maxRecDepth 8192 in
/-- The fold of the first 27 operations at their last result is `refPre` of the four arguments it reads. -/
theorem head_eq (V : Valuation τ sig (Elt F)) :
    after opsHead V (Proc.devRef .tc main_v18)
      = refPre (V (Proc.devRef .tc main_arg0)) (V (Proc.devRef .tc main_arg1)) (V (Proc.devRef .tc main_arg2))
          (V (Proc.devRef .tc main_arg3)) := by
  after_results_simp
  rfl

end Cert.ReferenceIdeal.Run

end
-- ==== Proof.RefDots.lean ====
/-
  The reference's two contractions read at an index, at the ideal values.

  The first is batched over the batch axis and contracts the neighbour axis of the weights with the node axis of the
  features: at `(bi, r, d)` it is `∑ j, w[bi,r,j] · h[bi,j,d]`. The second contracts the feature axis with the second
  axis of the weight matrix: at `(bi, r, k)` it is `∑ d, x[bi,r,d] · W[k,d]`. Each operand index is read axis by
  axis from the dimension numbers, and the one-axis contraction index is its coordinate.
-/
import proofs.«407254_j43164421325634_3_alg».proof.Proof.Gen.ReferenceIdeal
import Idealize.ShloMosaic.Lib.ValueIdx
import Idealize.ShloMosaic.PureOps.Ideal.Laws

noncomputable section

open scoped BigOperators

namespace Cert.ReferenceIdeal.Run

open Cert.ReferenceIdeal Cert.ReferenceIdeal.Gen Idealize.ShloMosaic Idealize.ShloMosaic.ValueIdx

/-! ## The batched contraction: operand indices axis by axis -/

theorem lhsA_0 (j : S8x256x128.Idx) (k : (dot_S8x256x256_S8x256x128_S8x256x128_2_1_1_2_0_0).contr.Idx) :
    ((dot_S8x256x256_S8x256x128_S8x256x128_2_1_1_2_0_0).lhsIdx j k 0 : ℕ) = j 0 := by
  simp [DotDims.lhsIdx, dot_S8x256x256_S8x256x128_S8x256x128_2_1_1_2_0_0]; rfl
theorem lhsA_1 (j : S8x256x128.Idx) (k : (dot_S8x256x256_S8x256x128_S8x256x128_2_1_1_2_0_0).contr.Idx) :
    ((dot_S8x256x256_S8x256x128_S8x256x128_2_1_1_2_0_0).lhsIdx j k 1 : ℕ) = j 1 := by
  simp [DotDims.lhsIdx, dot_S8x256x256_S8x256x128_S8x256x128_2_1_1_2_0_0]; rfl
theorem lhsA_2 (j : S8x256x128.Idx) (k : (dot_S8x256x256_S8x256x128_S8x256x128_2_1_1_2_0_0).contr.Idx) :
    ((dot_S8x256x256_S8x256x128_S8x256x128_2_1_1_2_0_0).lhsIdx j k 2 : ℕ) = k ⟨0, by decide⟩ := by
  simp [DotDims.lhsIdx, dot_S8x256x256_S8x256x128_S8x256x128_2_1_1_2_0_0]; rfl
theorem rhsA_0 (j : S8x256x128.Idx) (k : (dot_S8x256x256_S8x256x128_S8x256x128_2_1_1_2_0_0).contr.Idx) :
    ((dot_S8x256x256_S8x256x128_S8x256x128_2_1_1_2_0_0).rhsIdx j k 0 : ℕ) = j 0 := by
  simp [DotDims.rhsIdx, dot_S8x256x256_S8x256x128_S8x256x128_2_1_1_2_0_0]; rfl
theorem rhsA_1 (j : S8x256x128.Idx) (k : (dot_S8x256x256_S8x256x128_S8x256x128_2_1_1_2_0_0).contr.Idx) :
    ((dot_S8x256x256_S8x256x128_S8x256x128_2_1_1_2_0_0).rhsIdx j k 1 : ℕ) = k ⟨0, by decide⟩ := by
  simp [DotDims.rhsIdx, dot_S8x256x256_S8x256x128_S8x256x128_2_1_1_2_0_0]; rfl
theorem rhsA_2 (j : S8x256x128.Idx) (k : (dot_S8x256x256_S8x256x128_S8x256x128_2_1_1_2_0_0).contr.Idx) :
    ((dot_S8x256x256_S8x256x128_S8x256x128_2_1_1_2_0_0).rhsIdx j k 2 : ℕ) = j 2 := by
  simp [DotDims.rhsIdx, dot_S8x256x256_S8x256x128_S8x256x128_2_1_1_2_0_0]; rfl

/-- The weighted average of the neighbours' features: the batched contraction at `(bi, r, d)`. -/
theorem dotA_apply (w : FVec Ideal S8x256x256 .f32) (h : FVec Ideal S8x256x128 .f32) (bi : Fin 8) (r : Fin 256) (d : Fin 128) :
    Host.dotGeneral (F := Ideal) dot_S8x256x256_S8x256x128_S8x256x128_2_1_1_2_0_0 none w h (ix3 bi r d)
      = ∑ j : Fin 256, w (ix3 bi r j) * h (ix3 bi j d) := by
  show FloatOps.dotGeneral dot_S8x256x256_S8x256x128_S8x256x128_2_1_1_2_0_0 none .single w h (ix3 bi r d) = _
  rw [Ideal.dotGeneral_apply, ← Equiv.sum_comp (contrEquiv1 dot_S8x256x256_S8x256x128_S8x256x128_2_1_1_2_0_0 256 rfl rfl).symm]
  refine Finset.sum_congr rfl fun j _ => ?_
  have hk := contrEquiv1_symm_val dot_S8x256x256_S8x256x128_S8x256x128_2_1_1_2_0_0 256 rfl rfl j
  have hl : (dot_S8x256x256_S8x256x128_S8x256x128_2_1_1_2_0_0).lhsIdx (ix3 bi r d) ((contrEquiv1 dot_S8x256x256_S8x256x128_S8x256x128_2_1_1_2_0_0 256 rfl rfl).symm j) = ix3 bi r j :=
    funext fun a => Fin.ext <| match a with
      | ⟨0, _⟩ => lhsA_0 _ _
      | ⟨1, _⟩ => lhsA_1 _ _
      | ⟨2, _⟩ => (lhsA_2 _ _).trans hk
  have hr : (dot_S8x256x256_S8x256x128_S8x256x128_2_1_1_2_0_0).rhsIdx (ix3 bi r d) ((contrEquiv1 dot_S8x256x256_S8x256x128_S8x256x128_2_1_1_2_0_0 256 rfl rfl).symm j) = ix3 bi j d :=
    funext fun a => Fin.ext <| match a with
      | ⟨0, _⟩ => rhsA_0 _ _
      | ⟨1, _⟩ => (rhsA_1 _ _).trans hk
      | ⟨2, _⟩ => rhsA_2 _ _
  rw [hl, hr]

/-! ## The linear layer's contraction: operand indices axis by axis -/

theorem lhsB_0 (j : S8x256x128.Idx) (k : (dot_S8x256x128_S128x128_S8x256x128_2_1_01_0_n_n).contr.Idx) :
    ((dot_S8x256x128_S128x128_S8x256x128_2_1_01_0_n_n).lhsIdx j k 0 : ℕ) = j 0 := by
  simp [DotDims.lhsIdx, dot_S8x256x128_S128x128_S8x256x128_2_1_01_0_n_n]; rfl
theorem lhsB_1 (j : S8x256x128.Idx) (k : (dot_S8x256x128_S128x128_S8x256x128_2_1_01_0_n_n).contr.Idx) :
    ((dot_S8x256x128_S128x128_S8x256x128_2_1_01_0_n_n).lhsIdx j k 1 : ℕ) = j 1 := by
  simp [DotDims.lhsIdx, dot_S8x256x128_S128x128_S8x256x128_2_1_01_0_n_n]; rfl
theorem lhsB_2 (j : S8x256x128.Idx) (k : (dot_S8x256x128_S128x128_S8x256x128_2_1_01_0_n_n).contr.Idx) :
    ((dot_S8x256x128_S128x128_S8x256x128_2_1_01_0_n_n).lhsIdx j k 2 : ℕ) = k ⟨0, by decide⟩ := by
  simp [DotDims.lhsIdx, dot_S8x256x128_S128x128_S8x256x128_2_1_01_0_n_n]; rfl
theorem rhsB_0 (j : S8x256x128.Idx) (k : (dot_S8x256x128_S128x128_S8x256x128_2_1_01_0_n_n).contr.Idx) :
    ((dot_S8x256x128_S128x128_S8x256x128_2_1_01_0_n_n).rhsIdx j k 0 : ℕ) = j 2 := by
  simp [DotDims.rhsIdx, dot_S8x256x128_S128x128_S8x256x128_2_1_01_0_n_n]; rfl
theorem rhsB_1 (j : S8x256x128.Idx) (k : (dot_S8x256x128_S128x128_S8x256x128_2_1_01_0_n_n).contr.Idx) :
    ((dot_S8x256x128_S128x128_S8x256x128_2_1_01_0_n_n).rhsIdx j k 1 : ℕ) = k ⟨0, by decide⟩ := by
  simp [DotDims.rhsIdx, dot_S8x256x128_S128x128_S8x256x128_2_1_01_0_n_n]; rfl

/-- The linear layer: the contraction with row `k` of the weight matrix at `(bi, r, k)`. -/
theorem dotB_apply (x : FVec Ideal S8x256x128 .f32) (W : FVec Ideal S128x128 .f32) (bi : Fin 8) (r : Fin 256) (k : Fin 128) :
    Host.dotGeneral (F := Ideal) dot_S8x256x128_S128x128_S8x256x128_2_1_01_0_n_n none x W (ix3 bi r k)
      = ∑ d : Fin 128, x (ix3 bi r d) * W (ix2 k d) := by
  show FloatOps.dotGeneral dot_S8x256x128_S128x128_S8x256x128_2_1_01_0_n_n none .single x W (ix3 bi r k) = _
  rw [Ideal.dotGeneral_apply, ← Equiv.sum_comp (contrEquiv1 dot_S8x256x128_S128x128_S8x256x128_2_1_01_0_n_n 128 rfl rfl).symm]
  refine Finset.sum_congr rfl fun d _ => ?_
  have hk := contrEquiv1_symm_val dot_S8x256x128_S128x128_S8x256x128_2_1_01_0_n_n 128 rfl rfl d
  have hl : (dot_S8x256x128_S128x128_S8x256x128_2_1_01_0_n_n).lhsIdx (ix3 bi r k) ((contrEquiv1 dot_S8x256x128_S128x128_S8x256x128_2_1_01_0_n_n 128 rfl rfl).symm d) = ix3 bi r d :=
    funext fun a => Fin.ext <| match a with
      | ⟨0, _⟩ => lhsB_0 _ _
      | ⟨1, _⟩ => lhsB_1 _ _
      | ⟨2, _⟩ => (lhsB_2 _ _).trans hk
  have hr : (dot_S8x256x128_S128x128_S8x256x128_2_1_01_0_n_n).rhsIdx (ix3 bi r k) ((contrEquiv1 dot_S8x256x128_S128x128_S8x256x128_2_1_01_0_n_n 128 rfl rfl).symm d) = ix2 k d :=
    funext fun a => Fin.ext <| match a with
      | ⟨0, _⟩ => rhsB_0 _ _
      | ⟨1, _⟩ => (rhsB_1 _ _).trans hk
  rw [hl, hr]

end Cert.ReferenceIdeal.Run

end
-- ==== Proof.RefValue.lean ====
/-
  The reference's value before the batch normalisation, read entry by entry.

  Every operation of that part of the reference is read at one index: the sum of squares over the feature axis
  and its square root (the edge norms), the maximum over the neighbour axis folded from the initial value and
  taken once more against it (which changes nothing, the fold being at least its start), the two broadcasts that
  lay a per-row value back along the row, the exponential, the row sum and the quotient (the softmax), the batched
  contraction over the neighbours, the contraction with the weight matrix over the features, the bias laid over
  batches and nodes, and the clamp below at zero. Composed, entry `(bi, r, k)` is the specification's.
-/
import proofs.«407254_j43164421325634_3_alg».proof.Proof.RefHead
import proofs.«407254_j43164421325634_3_alg».proof.Proof.RefDots
import proofs.«407254_j43164421325634_3_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.ReferenceIdeal.Run

open Cert.ReferenceIdeal Cert.ReferenceIdeal.Gen Idealize.ShloMosaic Idealize.ShloMosaic.ValueIdx

/-! ## The two reductions' fibres -/

/-- The feature axis of the edge array is dropped. -/
theorem reduces_e : S8x256x256x128.Reduces [3] S8x256x256 := by decide
/-- The neighbour axis of a weight array is dropped. -/
theorem reduces_n : S8x256x256.Reduces [2] S8x256 := by decide

/-- The edge index over `(bi, r, j)` with feature `d` inserted. -/
theorem lift_e (bi : Fin 8) (r j : Fin 256) (d : Fin 128) : reduces_e.lift (ix3 bi r j) d = ix4 bi r j d := by
  funext c; match c with | ⟨0, _⟩ => rfl | ⟨1, _⟩ => rfl | ⟨2, _⟩ => rfl | ⟨3, _⟩ => rfl

/-- The weight index over `(bi, r)` with neighbour `j` inserted. -/
theorem lift_n (bi : Fin 8) (r j : Fin 256) : reduces_n.lift (ix2 bi r) j = ix3 bi r j := by
  funext c; match c with | ⟨0, _⟩ => rfl | ⟨1, _⟩ => rfl | ⟨2, _⟩ => rfl

/-- The sum over the neighbour axis from the zero initial value, at `(bi, r)`: the sum over `j` of the entries
    `(bi, r, j)`. -/
theorem rowSum_apply (z : FVec Ideal S8x256x256 .f32) (bi : Fin 8) (r : Fin 256) :
    Host.reduceAdd (F := Ideal) z (constant (F := Ideal) S_ .f32 0x00000000#32) reducesTo_S8x256x256_S8x256_d2 h_S_ (ix2 bi r)
      = ∑ j : Fin 256, z (ix3 bi r j) := by
  refine (Ideal.hostReduceAdd_single _ reduces_n z _ _).trans ?_
  refine (congrArg (· + _) Ideal.ofBits_zero_f32).trans ((zero_add _).trans ?_)
  exact Finset.sum_congr rfl fun j _ => congrArg z (lift_n bi r j)

/-! ## The keepdims broadcasts -/

/-- A per-row value broadcast along the neighbour axis reads the row's value. -/
theorem keepdims_apply {α : Type} (v : S8x256.Idx → α) (bi : Fin 8) (r j : Fin 256) :
    broadcastInDim S8x256x256 ![0, 1, 2] bcast_S8x256x1_S8x256x256_0_1_2
      (broadcastInDim S8x256x1 ![0, 1] bcast_S8x256_S8x256x1_0_1 v) (ix3 bi r j) = v (ix2 bi r) :=
  (broadcastInDim_apply _ _ _ (ix3 bi r j) (ix3 bi r (0 : Fin 1)) fun a =>
      match a with | ⟨0, _⟩ => rfl | ⟨1, _⟩ => rfl | ⟨2, _⟩ => rfl).trans
    (broadcastInDim_apply _ _ v (ix3 bi r (0 : Fin 1)) (ix2 bi r) fun a =>
      match a with | ⟨0, _⟩ => rfl | ⟨1, _⟩ => rfl)

/-- The bias broadcast over batches and nodes reads the feature's entry. -/
theorem bias_apply {α : Type} (b : S128.Idx → α) (bi : Fin 8) (r : Fin 256) (k : Fin 128) :
    broadcastInDim S8x256x128 ![0, 1, 2] bcast_S1x1x128_S8x256x128_0_1_2
      (broadcastInDim S1x1x128 ![2] bcast_S128_S1x1x128_2 b) (ix3 bi r k) = b (ix1 k) :=
  (broadcastInDim_apply _ _ _ (ix3 bi r k) (ix3 (0 : Fin 1) (0 : Fin 1) k) fun a =>
      match a with | ⟨0, _⟩ => rfl | ⟨1, _⟩ => rfl | ⟨2, _⟩ => rfl).trans
    (broadcastInDim_apply _ _ b (ix3 (0 : Fin 1) (0 : Fin 1) k) (ix1 k) fun a =>
      match a with | ⟨0, _⟩ => rfl)

/-! ## The norms, the row maximum, the exponentials, the softmax, at an index -/

/-- The edge norm at `(bi, r, j)`: the square root of the sum of the squared features. -/
theorem refNorm_apply (e : FVec Ideal S8x256x256x128 .f32) (bi : Fin 8) (r j : Fin 256) :
    refNorm (F := Ideal) e (ix3 bi r j) = Cert.Spec.nrm (fun j d => e (ix4 bi r j d)) j := by
  have h1 : Host.reduceAdd (F := Ideal) (mulf e e) (constant (F := Ideal) S_ .f32 0x00000000#32)
        reducesTo_S8x256x256x128_S8x256x256_d3 h_S_ (ix3 bi r j)
      = ∑ d : Fin 128, e (ix4 bi r j d) * e (ix4 bi r j d) := by
    refine (Ideal.hostReduceAdd_single _ reduces_e (mulf e e) _ _).trans ?_
    refine (congrArg (· + _) Ideal.ofBits_zero_f32).trans ((zero_add _).trans ?_)
    exact Finset.sum_congr rfl fun d _ => congrArg (fun i => e i * e i) (lift_e bi r j d)
  exact congrArg Ideal.sqrt h1

/-- The row maximum at `(bi, r)`: the fold of `max` over the neighbours from the initial value; the further
    `max` against that value changes nothing, the fold being at least its start. -/
theorem refRowMax_apply (n : FVec Ideal S8x256x256 .f32) (bi : Fin 8) (r : Fin 256) :
    refRowMax (F := Ideal) n (ix2 bi r) = Cert.Spec.rowMax (fun j => n (ix3 bi r j)) := by
  have h1 : Host.reduce (FloatOps.maximumf (F := Ideal) (φ := .f32)) n (constant (F := Ideal) S_ .f32 0xFF800000#32)
        reducesTo_S8x256x256_S8x256_d2 h_S_ (ix2 bi r) = Cert.Spec.rowMax (fun j => n (ix3 bi r j)) := by
    refine (Host.reduce_eq_fold_single _ n _ _ reduces_n _ _).trans ?_
    unfold Cert.Spec.rowMax
    refine congrArg (Finset.fold max _ · _) ?_
    exact funext fun j => congrArg n (lift_n bi r j)
  have h2 : broadcastInDim S8x256 ![] bcast_S_S8x256 (constant (F := Ideal) S_ .f32 0xFF800000#32) (ix2 bi r)
      = Ideal.ofBits .f32 0xFF800000#32 := broadcastInDim_scalar_apply _ _ _
  show max _ _ = _
  rw [h1, h2]
  exact max_eq_right ((Finset.le_fold_max _).mpr (Or.inl le_rfl))

/-- The exponential at `(bi, r, j)`. -/
theorem refExp_apply (n : FVec Ideal S8x256x256 .f32) (bi : Fin 8) (r j : Fin 256) :
    refExp (F := Ideal) n (ix3 bi r j) = Cert.Spec.expo (fun j => n (ix3 bi r j)) j := by
  show Ideal.exp (n (ix3 bi r j) - _) = _
  rw [keepdims_apply, refRowMax_apply]
  rfl

/-- The softmax at `(bi, r, j)`. -/
theorem refSoftmax_apply (n : FVec Ideal S8x256x256 .f32) (bi : Fin 8) (r j : Fin 256) :
    refSoftmax (F := Ideal) n (ix3 bi r j) = Cert.Spec.softmax (fun j => n (ix3 bi r j)) j := by
  show Ideal.div (refExp (F := Ideal) n (ix3 bi r j)) _ = _
  rw [keepdims_apply, rowSum_apply, refExp_apply]
  unfold Cert.Spec.softmax
  exact congrArg (Ideal.div _) (Finset.sum_congr rfl fun j' _ => refExp_apply n bi r j')

/-! ## The entry -/

/-- The softmax of the edge norms at `(bi, r, j)` is the specification's softmax of the node's row of norms. -/
theorem refSoftmax_norm_apply (e : FVec Ideal S8x256x256x128 .f32) (bi : Fin 8) (r j : Fin 256) :
    refSoftmax (F := Ideal) (refNorm (F := Ideal) e) (ix3 bi r j)
      = Cert.Spec.softmax (Cert.Spec.nrm (fun j d => e (ix4 bi r j d))) j :=
  (refSoftmax_apply _ bi r j).trans
    (congrArg (Cert.Spec.softmax · j) (funext fun j' => refNorm_apply e bi r j'))

/-- THE REFERENCE'S VALUE BEFORE THE NORMALISATION is the specification's array. -/
theorem refPre_eq (h : FVec Ideal S8x256x128 .f32) (e : FVec Ideal S8x256x256x128 .f32) (W : FVec Ideal S128x128 .f32)
    (b : FVec Ideal S128 .f32) : refPre (F := Ideal) h e W b = Cert.Spec.G h e W b := by
  funext i
  obtain ⟨bi, r, k, rfl⟩ : ∃ (bi : Fin 8) (r : Fin 256) (k : Fin 128), i = ix3 bi r k := ⟨i 0, i 1, i 2, eq_ix3 i⟩
  rw [Cert.Spec.G_ix3]
  unfold Cert.Spec.Gc Cert.Spec.outEntry refPre
  refine congrArg₂ max (congrArg₂ (· + ·) ?_ (bias_apply b bi r k)) (broadcastInDim_scalar_apply _ _ _)
  refine (dotB_apply _ W bi r k).trans (Finset.sum_congr rfl fun d _ => congrArg (· * _) ?_)
  refine congrArg (h (ix3 bi r d) + ·) ?_
  refine (dotA_apply _ h bi r d).trans (Finset.sum_congr rfl fun j _ => congrArg (· * _) ?_)
  exact refSoftmax_norm_apply e bi r j

end Cert.ReferenceIdeal.Run

end
-- ==== Proof.TailR.lean ====
/-
  The reference program's host operations after its linear layer and clamp, as ONE function of that layer's result,
  the node features and the two affine parameters: what the last buffer holds after them, whatever the buffers held
  before.
-/
import proofs.«407254_j43164421325634_3_alg».proof.Proof.RefRun

noncomputable section

namespace Cert.ReferenceIdeal.Tail

open Cert.ReferenceIdeal Cert.ReferenceIdeal.Gen Cert.ReferenceIdeal.Run Idealize.ShloMosaic Idealize.ShloMosaic.TcCoe Idealize.SL.Sem Idealize.ShloMosaic.StableHlo

variable {F : FTy → Type} [FloatOps F]

/-- The normalisation both programs apply to the `8 × 256 × 128` array `X`: the array is read as `2048 × 128`;
    each of the 128 columns is centred by its mean `∑ x / 2048` and scaled by `1/√(var + ε)`, where the variance is
    the mean of the squared deviations from the column mean (guarded by the degrees-of-freedom test `2048 - 0 > 0`),
    then multiplied by `g`, shifted by `b`, read back as `8 × 256 × 128`, and `h` is added. Never opened:
    both programs apply this same function. -/
def bn (X h : FVec F S8x256x128 .f32) (g b : FVec F S128 .f32) : FVec F S8x256x128 .f32 :=
  let x3 : FVec F S2048x128 .f32 := fun i => shapeCast S2048x128 X shapeCasts_S8x256x128_S2048x128 i
  let v4 : FVec F S128 .f32 := Host.reduceAdd x3 (constant S_ .f32 0x00000000#32) reducesTo_S2048x128_S128_d0 h_S_
  let v6 : FVec F S128 .f32 := Host.divf v4 (broadcastInDim S128 ![] bcast_S_S128 (constant S_ .f32 0x45000000#32))
  let c : IVec S_ 32 := constantI S_ 32 0#32
  let vv0 : FVec F S128 .f32 := Host.reduceAdd x3 (constant S_ .f32 0x00000000#32) reducesTo_S2048x128_S128_d0 h_S_
  let vv3 : FVec F S1x128 .f32 := Host.divf (broadcastInDim S1x128 ![1] bcast_S128_S1x128_1 vv0)
    (broadcastInDim S1x128 ![] bcast_S_S1x128 (constant S_ .f32 0x45000000#32))
  let vv5 : FVec F S2048x128 .f32 := subf x3 (broadcastInDim S2048x128 ![0, 1] bcast_S1x128_S2048x128_0_1 vv3)
  let vv6 : FVec F S2048x128 .f32 := mulf vv5 vv5
  let vv8 : FVec F S_ .f32 := subf (constant S_ .f32 0x45000000#32) (sitofp .f32 c)
  let vv9 : FVec F S128 .f32 := Host.reduceAdd vv6 (constant S_ .f32 0x00000000#32) reducesTo_S2048x128_S128_d0 h_S_
  let vv11 : FVec F S128 .f32 := Host.divf vv9 (broadcastInDim S128 ![] bcast_S_S128 vv8)
  let vv12 : IVec S_ 1 := cmpf .ogt vv8 (constant S_ .f32 0x00000000#32)
  let v7 : FVec F S128 .f32 := select (broadcastInDim S128 ![] bcast_S_S128 vv12) vv11
    (broadcastInDim S128 ![] bcast_S_S128 (id (constant S_ .f32 0x7FC00000#32)))
  let v10 : FVec F S2048x128 .f32 := subf x3 (broadcastInDim S2048x128 ![0, 1] bcast_S1x128_S2048x128_0_1
    (broadcastInDim S1x128 ![1] bcast_S128_S1x128_1 v6))
  let v12 : FVec F S128 .f32 := addf v7 (broadcastInDim S128 ![] bcast_S_S128 (constant S_ .f32 0x3727C5AC#32))
  let v13 : FVec F S128 .f32 := Host.rsqrt v12
  let v16 : FVec F S2048x128 .f32 := mulf v10 (broadcastInDim S2048x128 ![0, 1] bcast_S1x128_S2048x128_0_1
    (broadcastInDim S1x128 ![1] bcast_S128_S1x128_1 v13))
  let v19 : FVec F S2048x128 .f32 := mulf v16 (broadcastInDim S2048x128 ![0, 1] bcast_S1x128_S2048x128_0_1
    (broadcastInDim S1x128 ![1] bcast_S128_S1x128_1 g))
  let v22 : FVec F S2048x128 .f32 := addf v19 (broadcastInDim S2048x128 ![0, 1] bcast_S1x128_S2048x128_0_1
    (broadcastInDim S1x128 ![1] bcast_S128_S1x128_1 b))
  addf (fun i => shapeCast S8x256x128 v22 shapeCasts_S2048x128_S8x256x128 i) h

/-- The operations after the clamp, run from any buffer contents `W`, leave the result buffer at `bn` of the
    clamp's result buffer, the node features and the affine parameters as `W` has them. -/
theorem tail_eq (W : Valuation τ sig (Elt F)) :
    after opsTail W (Proc.devRef .tc main_v40)
      = bn (W (Proc.devRef .tc main_v18)) (W (Proc.devRef .tc main_arg0)) (W (Proc.devRef .tc main_arg4)) (W (Proc.devRef .tc main_arg5)) := by
  after_results_simp
  rfl

end Cert.ReferenceIdeal.Tail

end
-- ==== Proof.RefSide.lean ====
/-
  The reference program's run, read: after it the result buffer holds the shared normalisation applied to the
  pre-normalisation array `Spec.G` of the inputs, and the inputs are unchanged.

  The program is a straight line of host operations. Its first part ends in the clamped linear layer, whose value is
  `Spec.G` of the four inputs it reads; its second part is the normalisation, one function of that value, the node
  features and the two affine parameters; no operation writes an input.
-/
import proofs.«407254_j43164421325634_3_alg».proof.Proof.RefRun
import proofs.«407254_j43164421325634_3_alg».proof.Proof.RefHead
import proofs.«407254_j43164421325634_3_alg».proof.Proof.RefValue
import proofs.«407254_j43164421325634_3_alg».proof.Proof.TailR
import proofs.«407254_j43164421325634_3_alg».proof.Proof.Spec

noncomputable section

namespace Cert.ReferenceIdeal.Side

open Cert.ReferenceIdeal Cert.ReferenceIdeal.Gen Cert.ReferenceIdeal.Run Idealize.ShloMosaic Idealize.ShloMosaic.TcCoe Idealize.SL.Sem Idealize.ShloMosaic.StableHlo

variable (m : (ℓ : Loc nD τ sig) → Buf (Elt Ideal) ℓ) (ρ : Dev nD → PrngReg)

/-- The result buffer after all the operations, from the launch contents. -/
theorem out_eq (c : Dev nD) :
    after (opsHead ++ opsTail) (launchContents m c) (Proc.devRef .tc main_v40)
      = Cert.ReferenceIdeal.Tail.bn (F := Ideal)
          (Cert.Spec.G (m ((c.tc : Thread nD τ).loc main_arg0)) (m ((c.tc : Thread nD τ).loc main_arg1))
            (m ((c.tc : Thread nD τ).loc main_arg2)) (m ((c.tc : Thread nD τ).loc main_arg3)))
          (m ((c.tc : Thread nD τ).loc main_arg0)) (m ((c.tc : Thread nD τ).loc main_arg4)) (m ((c.tc : Thread nD τ).loc main_arg5)) := by
  rw [after_append, Cert.ReferenceIdeal.Tail.tail_eq, head_eq, head_arg0, head_arg4, head_arg5, refPre_eq]

/-- Every weakly fair execution terminates with the result at the normalisation of `Spec.G` and the inputs unchanged. -/
theorem run : θ_run defs (onTc (τ := τ) (main (F := Ideal))) ⟨m, fun _ => 0, ρ⟩ fun r => ∀ c : Dev nD,
      r.2.mem ((c.tc : Thread nD τ).loc main_v40)
        = Cert.ReferenceIdeal.Tail.bn (F := Ideal)
            (Cert.Spec.G (m ((c.tc : Thread nD τ).loc main_arg0)) (m ((c.tc : Thread nD τ).loc main_arg1))
              (m ((c.tc : Thread nD τ).loc main_arg2)) (m ((c.tc : Thread nD τ).loc main_arg3)))
            (m ((c.tc : Thread nD τ).loc main_arg0)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v40).trans (out_eq m c),
      (h c main_arg0).trans (by rw [after_append, tail_arg0, head_arg0]),
      (h c main_arg1).trans (by rw [after_append, tail_arg1, head_arg1]),
      (h c main_arg2).trans (by rw [after_append, tail_arg2, head_arg2]),
      (h c main_arg3).trans (by rw [after_append, tail_arg3, head_arg3]),
      (h c main_arg4).trans (by rw [after_append, tail_arg4, head_arg4]),
      (h c main_arg5).trans (by rw [after_append, tail_arg5, head_arg5])⟩)
    (run_after m ρ)

end Cert.ReferenceIdeal.Side

end
-- ==== Proof.lean ====
/-
  The kernel fuses, for every batch and every block of 128 nodes, the edge-norm softmax over the neighbours, the
  weighted average of the neighbours' features, the linear layer and the clamp at zero; the batch normalisation over
  all 2048 rows and the final addition of the node features are host operations after the region. The reference
  computes the same quantities with whole-array host operations.

  Over the extended reals the two programs agree because:
    * a block of the kernel's result is the reference's pre-normalisation value `Spec.G` read through the block
      (the two 128-wide chunks of squared norms laid side by side are the 256 squared norms; a lane reduction and a
      host reduction over one axis are the same sum, or the same fold of `max`; taking the maximum once more against
      the initial value of the fold changes nothing; a matrix product into a zero accumulator and a host contraction
      are the same sum over the contracted coordinate; the kernel multiplies by the transposed weight matrix where
      the reference contracts the weight matrix's second axis);
    * the sixteen blocks tile the `8 × 256 × 128` result, so the region leaves `Spec.G` whole;
    * both programs then apply literally the same normalisation to it (`Tail.bn`, never opened).
  No law used needs finiteness of the inputs: only re-indexing of sums and the absorption of the fold's initial
  value by `max`. The idealisation rewrote no operation, so `preserves` is trivial; the kernel programs' frames are
  the generated ones, and the reference's frame is its run with the result dropped.
-/
import proofs.«407254_j43164421325634_3_alg».proof.Defs
import proofs.«407254_j43164421325634_3_alg».proof.Proof.Gen.Kernel
import proofs.«407254_j43164421325634_3_alg».proof.Proof.Gen.Kernel.Frame
import proofs.«407254_j43164421325634_3_alg».proof.Proof.Gen.KernelIdeal
import proofs.«407254_j43164421325634_3_alg».proof.Proof.Gen.KernelIdeal.Frame
import proofs.«407254_j43164421325634_3_alg».proof.Proof.Gen.ReferenceIdeal
import proofs.«407254_j43164421325634_3_alg».proof.Proof.Gen.Pre_finite_inputs
import proofs.«407254_j43164421325634_3_alg».proof.Proof.KernelFinal
import proofs.«407254_j43164421325634_3_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, read, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Side.run m ρ)

/-- From memories that agree on the six inputs both programs end with the result at the normalisation of `Spec.G` of
    those inputs: the kernel program by its blocks, the reference by its operations read at an entry. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Tail.bn (F := Ideal) (Cert.KernelIdeal.Final.Garr m c)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    fun c => m ((c.tc : Thread Cert.KernelIdeal.nD Cert.KernelIdeal.τ).loc Cert.KernelIdeal.main_arg1), ?_, ?_⟩
  · exact (θ_run Cert.KernelIdeal.defs _ _).mono (fun _ h c => ⟨(h c).1, (h c).2.2.1, (h c).2⟩)
      (Cert.KernelIdeal.Final.run m ρ)
  · refine (θ_run Cert.ReferenceIdeal.defs _ _).mono (fun _ h c => ?_) (Cert.ReferenceIdeal.Side.run m' ρ')
    obtain ⟨a0, a1, a2, a3, a4, a5⟩ := hagree c
    refine ⟨(h c).1.trans ?_, (h c).2.2.1.trans a1, (h c).2⟩
    rw [a0, a1, a2, a3, a4, a5]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
